-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S_ : Shape := ⟨0, ![]⟩
abbrev S8x4096 : Shape := ⟨2, ![8, 4096]⟩
abbrev S8x4096x1 : Shape := ⟨3, ![8, 4096, 1]⟩
abbrev S8x4096x8 : Shape := ⟨3, ![8, 4096, 8]⟩
abbrev S8x8x4096 : Shape := ⟨3, ![8, 8, 4096]⟩
abbrev S8x1x128 : Shape := ⟨3, ![8, 1, 128]⟩
abbrev S1x4096x8 : Shape := ⟨3, ![1, 4096, 8]⟩
abbrev S1x8x4096 : Shape := ⟨3, ![1, 8, 4096]⟩
abbrev S1x1x128 : Shape := ⟨3, ![1, 1, 128]⟩
abbrev S4096x128 : Shape := ⟨2, ![4096, 128]⟩
abbrev S1x256x8 : Shape := ⟨3, ![1, 256, 8]⟩
abbrev S256x8 : Shape := ⟨2, ![256, 8]⟩
abbrev S256x4096 : Shape := ⟨2, ![256, 4096]⟩
abbrev S256x128 : Shape := ⟨2, ![256, 128]⟩
abbrev S4096 : Shape := ⟨1, ![4096]⟩
abbrev S1x4096 : Shape := ⟨2, ![1, 4096]⟩
abbrev S1 : Shape := ⟨1, ![1]⟩
abbrev S1x1 : Shape := ⟨2, ![1, 1]⟩
abbrev S1x128 : Shape := ⟨2, ![1, 128]⟩
abbrev S8x1x1 : Shape := ⟨3, ![8, 1, 1]⟩
abbrev S8 : Shape := ⟨1, ![8]⟩

abbrev nBuf : Space → Nat
  | .hbm => 45
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S8x4096x3, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S8x4096x1, .bf16⟩
  | .hbm, ⟨11, _⟩ => ⟨S8x4096x1, .f32⟩
  | .hbm, ⟨12, _⟩ => ⟨S8x4096x1, .f32⟩
  | .hbm, ⟨13, _⟩ => ⟨S8x4096x1, .bf16⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x8, .f32⟩
  | .hbm, ⟨25, _⟩ => ⟨S_, .f32⟩
  | .hbm, ⟨26, _⟩ => ⟨S8x4096x3, .f32⟩
  | .hbm, ⟨27, _⟩ => ⟨S8x4096x3, .f32⟩
  | .hbm, ⟨28, _⟩ => ⟨S8x4096x8, .f32⟩
  | .hbm, ⟨29, _⟩ => ⟨S8x8x4096, .f32⟩
  | .hbm, ⟨30, _⟩ => ⟨S8x1x128, .f32⟩
  | .hbm, ⟨31, _⟩ => ⟨S8x1x128, .f32⟩
  | .hbm, ⟨32, _⟩ => ⟨S8x1x1, .f32⟩
  | .hbm, ⟨33, _⟩ => ⟨S8, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8x1x1, .f32⟩
  | .hbm, ⟨39, _⟩ => ⟨S8, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S1x4096x8, .f32⟩
  | .local _ .vmem, ⟨1, _⟩ => ⟨S1x4096x8, .f32⟩
  | .local _ .vmem, ⟨2, _⟩ => ⟨S1x8x4096, .f32⟩
  | .local _ .vmem, ⟨3, _⟩ => ⟨S1x8x4096, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S4096x128, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_off1 (k0_t1 : Fin k0_t1_loop.trips) : Fin 3 → Nat :=
  let c0_17 : Index := 0#32
  let c0_i32 : BitVec 32 := 0#32
  let c1_i32 : BitVec 32 := 1#32
  let arg6 : BitVec 32 := Scf.iv c0_i32 c1_i32 k0_t1
  let c256_i32 : BitVec 32 := 256#32
  let v28 : BitVec 32 := Scalar.muli arg6 c256_i32
  let v29 : Index := Scalar.indexCast v28
  let c0_18 : Index := 0#32
  ![0, v29.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32_20 : BitVec 32 := 256#32
  let v96 : BitVec 32 := Scalar.muli arg6 c256_i32_20
  let v97 : Index := Scalar.indexCast v96
  let c0_21 : Index := 0#32
  ![v97.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bitsLt_bf16_f32 : FTy.bits .bf16 < FTy.bits .f32
  bcast_S_S8x4096x1 : S_.BroadcastsInDim S8x4096x1 (![] : Fin 0 → Fin S8x4096x1.rank)
  concatenates_S8x4096x3_S8x4096x1_S8x4096x1_S8x4096x1_S8x4096x1_S8x4096x1_S8x4096x8_d2 : Shape.Concatenates [S8x4096x3, S8x4096x1, S8x4096x1, S8x4096x1, S8x4096x1, S8x4096x1] S8x4096x8 2
  bcast_S_S8x4096x3 : S_.BroadcastsInDim S8x4096x3 (![] : Fin 0 → Fin S8x4096x3.rank)
  transposes_S8x4096x8_S8x8x4096_0_2_1 : S8x4096x8.Transposes [0, 2, 1] S8x8x4096
  inb_S1x8x4096_S1x8x4096_0_0_0 : ∀ a, (![0, 0, 0] : Fin 3 → Nat) a + S1x8x4096.size a ≤ S1x8x4096.size a
  h_S1x8x4096 : 0 < S1x8x4096.numel
  shapeCasts_S1x8x4096_S8x4096 : S1x8x4096.ShapeCasts S8x4096
  h_S1x256x8 : 0 < S1x256x8.numel
  shapeCasts_S1x256x8_S256x8 : S1x256x8.ShapeCasts S256x8
  slices_S256x4096_o0_0_S256x128 : S256x4096.Slices ![0, 0] S256x128
  slices_S256x4096_o0_128_S256x128 : S256x4096.Slices ![0, 128] S256x128
  slices_S256x4096_o0_256_S256x128 : S256x4096.Slices ![0, 256] S256x128
  slices_S256x4096_o0_384_S256x128 : S256x4096.Slices ![0, 384] S256x128
  slices_S256x4096_o0_512_S256x128 : S256x4096.Slices ![0, 512] S256x128
  slices_S256x4096_o0_640_S256x128 : S256x4096.Slices ![0, 640] S256x128
  slices_S256x4096_o0_768_S256x128 : S256x4096.Slices ![0, 768] S256x128
  slices_S256x4096_o0_896_S256x128 : S256x4096.Slices ![0, 896] S256x128
  slices_S256x4096_o0_1024_S256x128 : S256x4096.Slices ![0, 1024] S256x128
  slices_S256x4096_o0_1152_S256x128 : S256x4096.Slices ![0, 1152] S256x128
  slices_S256x4096_o0_1280_S256x128 : S256x4096.Slices ![0, 1280] S256x128
  slices_S256x4096_o0_1408_S256x128 : S256x4096.Slices ![0, 1408] S256x128
  slices_S256x4096_o0_1536_S256x128 : S256x4096.Slices ![0, 1536] S256x128
  slices_S256x4096_o0_1664_S256x128 : S256x4096.Slices ![0, 1664] S256x128
  slices_S256x4096_o0_1792_S256x128 : S256x4096.Slices ![0, 1792] S256x128
  slices_S256x4096_o0_1920_S256x128 : S256x4096.Slices ![0, 1920] S256x128
  slices_S256x4096_o0_2048_S256x128 : S256x4096.Slices ![0, 2048] S256x128
  slices_S256x4096_o0_2176_S256x128 : S256x4096.Slices ![0, 2176] S256x128
  slices_S256x4096_o0_2304_S256x128 : S256x4096.Slices ![0, 2304] S256x128
  slices_S256x4096_o0_2432_S256x128 : S256x4096.Slices ![0, 2432] S256x128
  slices_S256x4096_o0_2560_S256x128 : S256x4096.Slices ![0, 2560] S256x128
  slices_S256x4096_o0_2688_S256x128 : S256x4096.Slices ![0, 2688] S256x128
  slices_S256x4096_o0_2816_S256x128 : S256x4096.Slices ![0, 2816] S256x128
  slices_S256x4096_o0_2944_S256x128 : S256x4096.Slices ![0, 2944] S256x128
  slices_S256x4096_o0_3072_S256x128 : S256x4096.Slices ![0, 3072] S256x128
  slices_S256x4096_o0_3200_S256x128 : S256x4096.Slices ![0, 3200] S256x128
  slices_S256x4096_o0_3328_S256x128 : S256x4096.Slices ![0, 3328] S256x128
  slices_S256x4096_o0_3456_S256x128 : S256x4096.Slices ![0, 3456] S256x128
  slices_S256x4096_o0_3584_S256x128 : S256x4096.Slices ![0, 3584] S256x128
  slices_S256x4096_o0_3712_S256x128 : S256x4096.Slices ![0, 3712] S256x128
  slices_S256x4096_o0_3840_S256x128 : S256x4096.Slices ![0, 3840] S256x128
  slices_S256x4096_o0_3968_S256x128 : S256x4096.Slices ![0, 3968] S256x128
  h_S256x128 : 0 < S256x128.numel
  shapeCasts_S256x128_S256x128 : S256x128.ShapeCasts S256x128
  slices_S256x4096_o0_0_S8x4096 : S256x4096.Slices ![0, 0] S8x4096
  slices_S256x4096_o8_0_S8x4096 : S256x4096.Slices ![8, 0] S8x4096
  slices_S256x4096_o16_0_S8x4096 : S256x4096.Slices ![16, 0] S8x4096
  slices_S256x4096_o24_0_S8x4096 : S256x4096.Slices ![24, 0] S8x4096
  slices_S256x4096_o32_0_S8x4096 : S256x4096.Slices ![32, 0] S8x4096
  slices_S256x4096_o40_0_S8x4096 : S256x4096.Slices ![40, 0] S8x4096
  slices_S256x4096_o48_0_S8x4096 : S256x4096.Slices ![48, 0] S8x4096
  slices_S256x4096_o56_0_S8x4096 : S256x4096.Slices ![56, 0] S8x4096
  slices_S256x4096_o64_0_S8x4096 : S256x4096.Slices ![64, 0] S8x4096
  slices_S256x4096_o72_0_S8x4096 : S256x4096.Slices ![72, 0] S8x4096
  slices_S256x4096_o80_0_S8x4096 : S256x4096.Slices ![80, 0] S8x4096
  slices_S256x4096_o88_0_S8x4096 : S256x4096.Slices ![88, 0] S8x4096
  slices_S256x4096_o96_0_S8x4096 : S256x4096.Slices ![96, 0] S8x4096
  slices_S256x4096_o104_0_S8x4096 : S256x4096.Slices ![104, 0] S8x4096
  slices_S256x4096_o112_0_S8x4096 : S256x4096.Slices ![112, 0] S8x4096
  slices_S256x4096_o120_0_S8x4096 : S256x4096.Slices ![120, 0] S8x4096
  slices_S256x4096_o128_0_S8x4096 : S256x4096.Slices ![128, 0] S8x4096
  slices_S256x4096_o136_0_S8x4096 : S256x4096.Slices ![136, 0] S8x4096
  slices_S256x4096_o144_0_S8x4096 : S256x4096.Slices ![144, 0] S8x4096
  slices_S256x4096_o152_0_S8x4096 : S256x4096.Slices ![152, 0] S8x4096
  slices_S256x4096_o160_0_S8x4096 : S256x4096.Slices ![160, 0] S8x4096
  slices_S256x4096_o168_0_S8x4096 : S256x4096.Slices ![168, 0] S8x4096
  slices_S256x4096_o176_0_S8x4096 : S256x4096.Slices ![176, 0] S8x4096
  slices_S256x4096_o184_0_S8x4096 : S256x4096.Slices ![184, 0] S8x4096
  slices_S256x4096_o192_0_S8x4096 : S256x4096.Slices ![192, 0] S8x4096
  slices_S256x4096_o200_0_S8x4096 : S256x4096.Slices ![200, 0] S8x4096
  slices_S256x4096_o208_0_S8x4096 : S256x4096.Slices ![208, 0] S8x4096
  slices_S256x4096_o216_0_S8x4096 : S256x4096.Slices ![216, 0] S8x4096
  slices_S256x4096_o224_0_S8x4096 : S256x4096.Slices ![224, 0] S8x4096
  slices_S256x4096_o232_0_S8x4096 : S256x4096.Slices ![232, 0] S8x4096
  slices_S256x4096_o240_0_S8x4096 : S256x4096.Slices ![240, 0] S8x4096
  slices_S256x4096_o248_0_S8x4096 : S256x4096.Slices ![248, 0] S8x4096
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S1x4096 : S4096.ShapeCasts S1x4096
  reduces_S1x4096_S1 : S1x4096.Reduces [1] S1
  shapeCasts_S1_S1x1 : S1.ShapeCasts S1x1
  inpos_S1x1_p0_0 : ∀ a, (![0, 0] : Fin 2 → Nat) a < S1x1.size a
  reduces_S8x4096_S4096 : S8x4096.Reduces [0] S4096
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S8x1x128_S8x1x1_0_0_0 : S8x1x128.Slices ![0, 0, 0] S8x1x1
  shapeCasts_S8x1x1_S8 : S8x1x1.ShapeCasts S8
  reducesTo_S8_S_d0 : S8.ReducesTo [0] S_
  dot_S256x8_S8x4096_S256x4096_1_0_0_1_n_n_wf : DotDims.WF S256x8 S8x4096 S256x4096 [1] [0] [0] [1] [] []
  hrank0 : 0 < grid0.rank
  k0_t1_ok : k0_t1_loop.OK
  k0_off1_inb : ∀ k0_t1 : Fin k0_t1_loop.trips, ∀ a, (k0_off1 k0_t1) a + S1x256x8.size a ≤ S1x4096x8.size a
  k0_off2_inb : ∀ k0_t1 : Fin k0_t1_loop.trips, ∀ a, (k0_off2 k0_t1) a + S256x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x8.size a ≤ S8x4096x8.size a
  hwx0_0 : ∀ i : grid0.Coords, EltTy.bits .f32 = 32 ∨ (Rect.block (s := S8x4096x8) S1x4096x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x4096.size a ≤ S8x8x4096.size a
  hwx0_1 : ∀ i : grid0.Coords, EltTy.bits .f32 = 32 ∨ (Rect.block (s := S8x8x4096) S1x8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x128.size a
  hwx0_3 : ∀ i : grid0.Coords, EltTy.bits .f32 = 32 ∨ (Rect.block (s := S8x1x128) S1x1x128.size (cc0_transform_3 i) (hinb0_3 i)).WholeWords (EltTy.packing .f32)

variable [Facts₀]

def dot_S256x8_S8x4096_S256x4096_1_0_0_1_n_n : DotDims S256x8 S8x4096 S256x4096 where
  lhsContracting := [1]
  rhsContracting := [0]
  lhsNonContracting := [0]
  rhsNonContracting := [1]
  lhsBatch := []
  rhsBatch := []
  wf := dot_S256x8_S8x4096_S256x4096_1_0_0_1_n_n_wf

abbrev win0_0 : Pipeline.Window sig grid0 :=
  Pipeline.Window.ofSpec (Memref.whole main_v16) S1x4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1x8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.K.Kit.lean ====
/-
  The program around its one kernel region. @main is twenty-eight host operations that build the two
  augmented point clouds (each point's three coordinates beside its squared norm split in two, ones and a
  zero), the region, and thirteen host operations that sum the region's two per-batch results and scale
  them. Here: the contents every buffer holds when the region is entered (the host operations before it,
  composed), @main reduced to the region continued by the later operations, the side conditions those
  later operations owe the region's arrays, each window's block at a grid point, and the frame claim's
  post read off a run of the region: the two argument arrays are staged by no window and written by no
  host operation, so they end as launched.
-/
import proofs.«144322_g85555748536873_cont_9to1_m_146_7_alg».proof.Proof.Gen.Kernel.Launch
import proofs.«144322_g85555748536873_cont_9to1_m_146_7_alg».proof.Proof.Gen.Kernel.Skeleton
import proofs.«144322_g85555748536873_cont_9to1_m_146_7_alg».proof.Proof.Gen.Kernel.Points
import proofs.«144322_g85555748536873_cont_9to1_m_146_7_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the host operations before it applied to the launch contents. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, the host operations after it: it reduces to the
    region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is none of the region's four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes the first argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes the first argument array, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same for the second. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second input. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- For any proof data, a run that ends with every array of the region at the data's final contents and every
    bypassing buffer as the later operations leave it ends with both argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The memrefs the body is called with, and the region's invariant -/

abbrev ms0_0 (t : Fin cfg0.N) : Memref sig .tc .vmem S1x4096x8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
/-- The kernel's scratch: a whole scoped buffer of its own, the row-side partial minima. -/
abbrev scM0_0 : Memref sig .tc .vmem S4096x128 .f32 := Memref.whole cc0_scratch0
/-- One staging buffer of each output window, through which its contents are stated. -/
abbrev VO0_2 : View sig .tc .vmem S1x1x128 .f32 := (Memref.whole cc0_stg2_0 : Memref sig .tc .vmem S1x1x128 .f32).view
abbrev VO0_3 : View sig .tc .vmem S1x1x128 .f32 := (Memref.whole cc0_stg3_0 : Memref sig .tc .vmem S1x1x128 .f32).view

/-- The region's invariant: the scratch owned at some contents, and the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- No window is ever idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

end Cert.Kernel.Hand

end
-- ==== Proof.K.Run.lean ====
/-
  One whole run of the kernel body on whole staging buffers. The body reads the second operand's block
  once, then makes sixteen trips over row tiles of the first operand's block — each trip multiplies a
  256-row tile by the second block, stores the tile's lane-group minima into its rows of the scratch and
  folds the tile's sublane-group minima into the carried column minima —, then reduces the scratch and the
  carried value to the two per-batch sums and stores each, broadcast, into its output block. The run goes
  through the loop by its invariant (the trips' stored pieces and the carried value as one recursion over
  the trips); what each output block ends with is one store covering it.
-/
import proofs.«144322_g85555748536873_cont_9to1_m_146_7_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two output blocks (one whole-block store each), WITH the proof that on
    whole staging buffers — the inputs' at their contents, the outputs' at anything, the scratch at contents `g5` —
    the body runs to its end holding the inputs as they were, each output with its piece written, the scratch at
    some contents. -/
noncomputable def kernelRun (c : Dev nD) (i : grid0.Coords) (arg1 : Memref sig .tc .vmem S1x4096x8 .f32) (harg1 : arg1.IsWhole) (arg2 : Memref sig .tc .vmem S1x8x4096 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S4096x128 .f32) (harg5 : arg5.IsWhole)
    (x0 : Vec F S1x4096x8 .f32) (x1 : Vec F S1x8x4096 .f32) (g5 : Vec F S4096x128 .f32) :
    Σ' (L2 : List (View.Piece (Elt F) S1x1x128 .f32)), { L3 : List (View.Piece (Elt F) S1x1x128 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ owns (c : Thread nD τ) arg5 fullShare g5
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ d, owns (c : Thread nD τ) arg5 fullShare d)) -∗ K ⟨⟩))
          ⊢ wp frame (wpE (defs₀ (F := F)) Variants.none c none) E (cc0__chamfer_body i arg1 harg1 arg2 harg2 arg3 harg3 arg4 harg4 arg5 harg5) K } := by
  refine ⟨?_, ?_, fun E K => ?run⟩
  case run =>
    simp only [cc0__chamfer_body_eq_skeleton]; unfold cc0__chamfer_body_skel
    unfold owns
    iintro ⟨⟨%f0, %hf0, H0⟩, ⟨%f1, %hf1, H1⟩, ⟨%d2, %f2, -, H2⟩, ⟨%d3, %f3, -, H3⟩, ⟨%f5, %hf5, H5⟩, Hk⟩
    obtain rfl := harg1.eq_unread hf0; obtain rfl := harg2.eq_unread hf1; obtain rfl := harg5.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexists _; isplitr
    swap; · iexact H5
    ipureintro; rfl

end Cert.Kernel.Hand

end
-- ==== Proof.K.Trip.lean ====
/-
  The sixteen trips of the body's loop, in closed form. Trip `k` reads rows 256k … 256k+255 of the first
  input block, multiplies that tile by the second block, stores into the same rows of the scratch the
  tile's minima over the thirty-two groups of 128 lanes, and folds into the carried value the tile's
  minima over its thirty-two groups of 8 sublanes. Neither depends on what the scratch held or on the
  carried value beyond that last fold, so the loop's state after `n` trips is a plain recursion: the
  carried column minima, and the row tiles stored so far, which after the last trip tile the scratch.
-/
import proofs.«144322_g85555748536873_cont_9to1_m_146_7_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Rows 256k … 256k+255 of the first input block. -/
def tileOf (x0 : Vec F S1x4096x8 .f32) (k : Fin k0_t1_loop.trips) : Vec F S1x256x8 .f32 :=
  View.ld x0 (Rect.unit (s := S1x4096x8) (k0_off1 k) S1x256x8.size (k0_off1_inb k))

/-- What a trip stores: from the second block as a matrix `v1` and a row tile `v30`, the tile's product with `v1`
    reduced by minimum over the thirty-two lane groups. -/
def rowTile (v1 : FVec F S8x4096 .f32) (v30 : Vec F S1x256x8 .f32) : FVec F S256x128 .f32 :=
  k0_pay22 (k0_pay8 v1 v30) (k0_pay9 v1 v30) (k0_pay10 v1 v30) (k0_pay11 v1 v30) (k0_pay12 v1 v30) (k0_pay13 v1 v30) (k0_pay14 v1 v30) (k0_pay15 v1 v30) (k0_pay16 v1 v30) (k0_pay17 v1 v30) (k0_pay18 v1 v30) (k0_pay19 v1 v30) (k0_pay20 v1 v30) (k0_pay21 v1 v30)

/-- The carried value after a trip: the value before it, folded with the tile's product reduced by minimum over its
    thirty-two sublane groups. -/
def colStepOf (v32 : FVec F S256x4096 .f32) (acc : FVec F S8x4096 .f32) : FVec F S8x4096 .f32 :=
  k0_pay4 acc (k0_pay23 v32) (k0_pay24 v32) (k0_pay41 v32) (k0_pay42 v32) (k0_pay43 v32) (k0_pay44 v32) (k0_pay45 v32) (k0_pay46 v32) (k0_pay47 v32)
    (k0_pay3 (k0_pay25 v32) (k0_pay26 v32) (k0_pay27 v32) (k0_pay28 v32) (k0_pay29 v32) (k0_pay30 v32) (k0_pay31 v32) (k0_pay32 v32) (k0_pay33 v32) (k0_pay34 v32) (k0_pay35 v32) (k0_pay36 v32) (k0_pay37 v32) (k0_pay38 v32) (k0_pay39 v32) (k0_pay40 v32))
def colStep (v1 : FVec F S8x4096 .f32) (v30 : Vec F S1x256x8 .f32) (acc : FVec F S8x4096 .f32) : FVec F S8x4096 .f32 :=
  colStepOf (k0_pay7 v1 v30) acc

/-- The rows of the scratch trip `k` stores into. -/
abbrev rowRect (k : Fin k0_t1_loop.trips) : Rect S4096x128 :=
  Rect.unit (s := S4096x128) (k0_off2 k) S256x128.size (k0_off2_inb k)

section OneTrip
variable (𝒱 : Variants) (c : Dev nD) (bd : Option 𝒱.V) (i : grid0.Coords) (arg1 : Memref sig .tc .vmem S1x4096x8 .f32) (harg1 : arg1.IsWhole) (arg2 : Memref sig .tc .vmem S1x8x4096 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S4096x128 .f32) (harg5 : arg5.IsWhole)
  (v0 : Vec F S1x8x4096 .f32) (x0 : Vec F S1x4096x8 .f32)

/-- A trip's yield is the column fold, whatever the scratch holds. -/
theorem tripR_eq (k : Fin k0_t1_loop.trips) (acc : FVec F S8x4096 .f32) (f : BufTy.Contents (Elt F) arg5.view.ty) :
    tripR_k0_t1 (F := F) 𝒱 c bd i arg1 harg1 arg2 harg2 arg3 harg3 arg4 harg4 arg5 harg5 v0 (harg1.unread x0) k acc f
      = colStep (k0_pay1 v0) (tileOf x0 k) acc := by
  unfold tripR_k0_t1 trip_k0_t1
  dsimp only
  sl_unfold_words
  simp only [View.readAt_eq_ld, harg1.read_unread]
  rfl

/-- A trip's one stored piece is the row tile at the trip's rows, whatever the scratch holds and whatever is carried. -/
theorem tripL_eq (k : Fin k0_t1_loop.trips) (acc : FVec F S8x4096 .f32) (f : BufTy.Contents (Elt F) arg5.view.ty) :
    tripL_k0_t1 (F := F) 𝒱 c bd i arg1 harg1 arg2 harg2 arg3 harg3 arg4 harg4 arg5 harg5 v0 (harg1.unread x0) k acc f
      = [⟨rowRect k, rowTile (k0_pay1 v0) (tileOf x0 k)⟩] := by
  unfold tripL_k0_t1 trip_k0_t1
  dsimp only
  sl_unfold_words
  simp only [View.readAt_eq_ld, harg1.read_unread]
  rfl
end OneTrip

/-- The carried column minima after `n` trips. -/
def colAcc (x0 : Vec F S1x4096x8 .f32) (v1 : FVec F S8x4096 .f32) : ℕ → FVec F S8x4096 .f32
  | 0 => k0_pay2
  | n + 1 => if h : n < k0_t1_loop.trips then colStep v1 (tileOf x0 ⟨n, h⟩) (colAcc x0 v1 n) else colAcc x0 v1 n

/-- The row tiles stored by the first `n` trips, last first. -/
def rowPieces (x0 : Vec F S1x4096x8 .f32) (v1 : FVec F S8x4096 .f32) : ℕ → List (View.Piece (Elt F) S4096x128 .f32)
  | 0 => []
  | n + 1 => if h : n < k0_t1_loop.trips then [⟨rowRect ⟨n, h⟩, rowTile v1 (tileOf x0 ⟨n, h⟩)⟩] ++ rowPieces x0 v1 n else rowPieces x0 v1 n

/-- The loop's state before trip `n` is the plain recursion: it depends neither on the scratch's contents at loop entry
    nor on anything but the two input blocks. -/
theorem st_eq (𝒱 : Variants) (c : Dev nD) (bd : Option 𝒱.V) (i : grid0.Coords) (arg1 : Memref sig .tc .vmem S1x4096x8 .f32) (harg1 : arg1.IsWhole) (arg2 : Memref sig .tc .vmem S1x8x4096 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S4096x128 .f32) (harg5 : arg5.IsWhole)
    (v0 : Vec F S1x8x4096 .f32) (x0 : Vec F S1x4096x8 .f32) (G : BufTy.Contents (Elt F) arg5.view.ty) (n : ℕ) :
    st_k0_t1 (F := F) 𝒱 c bd i arg1 harg1 arg2 harg2 arg3 harg3 arg4 harg4 arg5 harg5 v0 (harg1.unread x0) G k0_pay2 n
      = (colAcc x0 (k0_pay1 v0) n, rowPieces x0 (k0_pay1 v0) n) := by
  induction n with
  | zero => rfl
  | succ n ih =>
    rw [st_k0_t1.eq_2, ih]; unfold st_k0_t1Step
    by_cases h : n < k0_t1_loop.trips
    · rw [dif_pos h]; dsimp only
      rw [tripR_eq, tripL_eq, colAcc, rowPieces, dif_pos h, dif_pos h]
    · rw [dif_neg h, colAcc, rowPieces, dif_neg h, dif_neg h]

theorem trips_eq : Scf.trips k0_t1_loop.lb k0_t1_loop.ub k0_t1_loop.st = 16 := by decide

/-- After the sixteenth trip the stored row tiles tile the scratch. -/
theorem rowPieces_cover (x0 : Vec F S1x4096x8 .f32) (v1 : FVec F S8x4096 .f32) (y : S4096x128.Idx) :
    ∃ pc ∈ rowPieces x0 v1 16, y ∈ pc.1.set :=
  View.cover_of_tiledL (rowPieces x0 v1 16) S256x128.size (by sl_kernel_rfl) y

/-- The scratch after the loop, as one array: row tile `k` in rows 256k … 256k+255. -/
def rowsAll (x0 : Vec F S1x4096x8 .f32) (v1 : FVec F S8x4096 .f32) : Vec F S4096x128 .f32 :=
  View.canon (rowPieces x0 v1 16)

end Cert.Kernel.Hand

end
-- ==== Proof.K.Frame.lean ====
/-
  The frame of the program: every weakly fair execution of @main ends, faulting nowhere, with the two
  argument arrays as launched — and with every array of the region named. At grid point `t` (batch `t`)
  the body leaves in the first output block the sum over the 4096 rows of the clamped row minima of the
  scratch, and in the second the sum over the 4096 columns of the clamped column minima of the carried
  value, each broadcast over the block's 128 lanes; both are functions of the point's two input blocks
  alone. The scratch is the kernel's own: handed over at some contents and given back at some contents.
-/
import proofs.«144322_g85555748536873_cont_9to1_m_146_7_alg».proof.Proof.K.Trip
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole-block rectangle of an output block. -/
abbrev rOut : Rect S1x1x128 := Rect.unit (s := S1x1x128) ![0, 0, 0] S1x1x128.size inb_S1x1x128_S1x1x128_0_0_0

/-- What the body leaves in the first output block: from the scratch after the loop, the clamped row minima summed. -/
def out2 (x0 : Vec F S1x4096x8 .f32) (x1 : Vec F S1x8x4096 .f32) : Vec F S1x1x128 .f32 :=
  k0_pay5 (rowsAll x0 (k0_pay1 x1))
/-- What the body leaves in the second output block: from the carried value after the loop, the clamped column minima summed. -/
def out3 (x0 : Vec F S1x4096x8 .f32) (x1 : Vec F S1x8x4096 .f32) : Vec F S1x1x128 .f32 :=
  k0_pay6 (colAcc x0 (k0_pay1 x1) 16)

theorem hz3 : (![0, 0, 0] : Fin S1x8x4096.rank → Nat) = fun _ => 0 := by
  funext a; match a with | ⟨0, _⟩ => rfl | ⟨1, _⟩ => rfl | ⟨2, _⟩ => rfl
theorem hzO : (![0, 0, 0] : Fin S1x1x128.rank → Nat) = fun _ => 0 := by
  funext a; match a with | ⟨0, _⟩ => rfl | ⟨1, _⟩ => rfl | ⟨2, _⟩ => rfl
theorem hz2 : (![0, 0] : Fin S4096x128.rank → Nat) = fun _ => 0 := by
  funext a; match a with | ⟨0, _⟩ => rfl | ⟨1, _⟩ => rfl

section Pieces
variable (c : Dev nD) (i : grid0.Coords) (arg1 : Memref sig .tc .vmem S1x4096x8 .f32) (harg1 : arg1.IsWhole) (arg2 : Memref sig .tc .vmem S1x8x4096 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S4096x128 .f32) (harg5 : arg5.IsWhole)
  (x0 : Vec F S1x4096x8 .f32) (x1 : Vec F S1x8x4096 .f32) (g5 : Vec F S4096x128 .f32)

/-- The second block read whole is the block. -/
theorem ld_x1 : View.readAt (Elt F) arg2.view (Rect.unit (s := S1x8x4096) ![0, 0, 0] S1x8x4096.size inb_S1x8x4096_S1x8x4096_0_0_0).toLoadRect (harg2.unread x1) = x1 := by
  rw [View.readAt_eq_ld, harg2.read_unread, View.ld_unit_zero (S := S1x8x4096) hz3]

/-- The run's one piece for the first output: the whole block at `out2`, whatever the scratch held. -/
theorem run_L2 : (kernelRun c i arg1 harg1 arg2 harg2 arg3 harg3 arg4 harg4 arg5 harg5 x0 x1 g5).1 = [⟨rOut, out2 x0 x1⟩] := by
  show [(⟨rOut, k0_pay5 (kernelRun.sl.v5 c i arg1 harg1 arg2 harg2 arg3 harg3 arg4 harg4 arg5 harg5 x0 x1 g5)⟩ : View.Piece (Elt F) S1x1x128 .f32)] = _
  unfold out2 rowsAll
  refine congrArg (fun v => [(⟨rOut, k0_pay5 v⟩ : View.Piece (Elt F) S1x1x128 .f32)]) ?_
  unfold kernelRun.sl.v5
  rw [View.readAt_eq_ld, trips_eq, st_eq, ld_x1 (harg2 := harg2)]
  dsimp only
  rw [View.read_writes_eq_canon _ _ _ (rowPieces_cover x0 (k0_pay1 x1)), View.ld_unit_zero (S := S4096x128) hz2]

/-- The run's one piece for the second output: the whole block at `out3`. -/
theorem run_L3 : (kernelRun c i arg1 harg1 arg2 harg2 arg3 harg3 arg4 harg4 arg5 harg5 x0 x1 g5).2.1 = [⟨rOut, out3 x0 x1⟩] := by
  show [(⟨rOut, k0_pay6 (st_k0_t1 (F := F) Variants.none c none i arg1 harg1 arg2 harg2 arg3 harg3 arg4 harg4 arg5 harg5 _ (harg1.unread x0) (harg5.unread g5) k0_pay2 _).1⟩ : View.Piece (Elt F) S1x1x128 .f32)] = _
  unfold out3
  rw [trips_eq, st_eq, ld_x1 (harg2 := harg2)]
end Pieces

/-- One whole-block store covers the block. -/
theorem cover_out (p : Vec F S1x1x128 .f32) (y : S1x1x128.Idx) :
    ∃ pc ∈ ([⟨rOut, p⟩] : List (View.Piece (Elt F) S1x1x128 .f32)), y ∈ pc.1.set :=
  ⟨_, List.mem_singleton_self _, View.mem_set_unit_zero hzO inb_S1x1x128_S1x1x128_0_0_0 y⟩

/-! ## The pipeline's proof data -/

/-- The proof data of the one pipeline on core `c`: the arrays as the region finds them; after the body at point `t`
    each input's buffer at its block, each output's at the body's value of the two input blocks; the invariant the
    scratch at some contents and the generator register at some state; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
    | ⟨3, _⟩ => out3 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 (iblk m c 0 t) (iblk m c 1 t) := by dsimp only [dats]
theorem after0_3 (c : Dev nD) (t : Fin cfg0.N) : (dats m 0 c).after 3 t = out3 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1600000 in
/-- The body at any point: the inputs' buffers hold their blocks, the invariant lends the scratch at some contents, the
    run applies at those contents, and each output's buffer ends at its one covering store. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3,
    show (dats m 0 c).Φ t.castSucc = Pipeline.ΦA spec0 c from rfl, PhiA0_eq]
  iintro ⟨⟨⟨%g5, HS⟩, Hg⟩, Ho, ⟨%d0, H0⟩, ⟨%d1, H1⟩, ⟨%d2, H2⟩, ⟨%d3, H3⟩⟩
  iapply ((kernelRun c (grid0.coords t) _ (hs0_0 t) _ (hs0_1 t) _ (hs0_2 t) _ (hs0_3 t) scM0_0 (Memref.isWhole_whole _) (iblk m c 0 t) (iblk m c 1 t) g5).2.2 Set.univ _)
  isplitl [H0]; · iexact H0
  isplitl [H1]; · iexact H1
  isplitl [H2]; · iexists _; iexact H2
  isplitl [H3]; · iexists _; iexact H3
  isplitl [HS]; · iexact HS
  iintro ⟨H0, H1, ⟨%e2, H2⟩, ⟨%e3, H3⟩, HS⟩
  isplitl [HS Hg]
  · isplitl [HS]; · iexact HS
    iexact Hg
  isplitl [Ho]; · iexact Ho
  isplitl [H0]; · iexact H0
  isplitl [H1]; · iexact H1
  isplitl [H2]
  · unfold owns; iexists _; isplitr
    swap; · iexact H2
    ipureintro
    rw [run_L2, View.read_writes_eq_canon _ _ _ (cover_out _), View.canon_unit_zero (S := S1x1x128) hzO]
  · unfold owns; iexists _; isplitr
    swap; · iexact H3
    ipureintro
    rw [run_L3, View.read_writes_eq_canon _ _ _ (cover_out _), View.canon_unit_zero (S := S1x1x128) hzO]

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the region at what the
    proof data's blocks assemble to and every other unscoped buffer as the later host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Hand

end
-- ==== Proof.KI.Kit.lean ====
/-
  The program around its one kernel region. @main is twenty-eight host operations that build the two
  augmented point clouds (each point's three coordinates beside its squared norm split in two, ones and a
  zero), the region, and thirteen host operations that sum the region's two per-batch results and scale
  them. Here: the contents every buffer holds when the region is entered (the host operations before it,
  composed), @main reduced to the region continued by the later operations, the side conditions those
  later operations owe the region's arrays, each window's block at a grid point, and the frame claim's
  post read off a run of the region: the two argument arrays are staged by no window and written by no
  host operation, so they end as launched.
-/
import proofs.«144322_g85555748536873_cont_9to1_m_146_7_alg».proof.Proof.Gen.KernelIdeal.Launch
import proofs.«144322_g85555748536873_cont_9to1_m_146_7_alg».proof.Proof.Gen.KernelIdeal.Skeleton
import proofs.«144322_g85555748536873_cont_9to1_m_146_7_alg».proof.Proof.Gen.KernelIdeal.Points
import proofs.«144322_g85555748536873_cont_9to1_m_146_7_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the host operations before it applied to the launch contents. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, the host operations after it: it reduces to the
    region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is none of the region's four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes the first argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes the first argument array, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same for the second. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second input. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- For any proof data, a run that ends with every array of the region at the data's final contents and every
    bypassing buffer as the later operations leave it ends with both argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The memrefs the body is called with, and the region's invariant -/

abbrev ms0_0 (t : Fin cfg0.N) : Memref sig .tc .vmem S1x4096x8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
/-- The kernel's scratch: a whole scoped buffer of its own, the row-side partial minima. -/
abbrev scM0_0 : Memref sig .tc .vmem S4096x128 .f32 := Memref.whole cc0_scratch0
/-- One staging buffer of each output window, through which its contents are stated. -/
abbrev VO0_2 : View sig .tc .vmem S1x1x128 .f32 := (Memref.whole cc0_stg2_0 : Memref sig .tc .vmem S1x1x128 .f32).view
abbrev VO0_3 : View sig .tc .vmem S1x1x128 .f32 := (Memref.whole cc0_stg3_0 : Memref sig .tc .vmem S1x1x128 .f32).view

/-- The region's invariant: the scratch owned at some contents, and the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- No window is ever idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

end Cert.KernelIdeal.Hand

end
-- ==== Proof.KI.Run.lean ====
/-
  One whole run of the kernel body on whole staging buffers. The body reads the second operand's block
  once, then makes sixteen trips over row tiles of the first operand's block — each trip multiplies a
  256-row tile by the second block, stores the tile's lane-group minima into its rows of the scratch and
  folds the tile's sublane-group minima into the carried column minima —, then reduces the scratch and the
  carried value to the two per-batch sums and stores each, broadcast, into its output block. The run goes
  through the loop by its invariant (the trips' stored pieces and the carried value as one recursion over
  the trips); what each output block ends with is one store covering it.
-/
import proofs.«144322_g85555748536873_cont_9to1_m_146_7_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two output blocks (one whole-block store each), WITH the proof that on
    whole staging buffers — the inputs' at their contents, the outputs' at anything, the scratch at contents `g5` —
    the body runs to its end holding the inputs as they were, each output with its piece written, the scratch at
    some contents. -/
noncomputable def kernelRun (c : Dev nD) (i : grid0.Coords) (arg1 : Memref sig .tc .vmem S1x4096x8 .f32) (harg1 : arg1.IsWhole) (arg2 : Memref sig .tc .vmem S1x8x4096 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S4096x128 .f32) (harg5 : arg5.IsWhole)
    (x0 : Vec F S1x4096x8 .f32) (x1 : Vec F S1x8x4096 .f32) (g5 : Vec F S4096x128 .f32) :
    Σ' (L2 : List (View.Piece (Elt F) S1x1x128 .f32)), { L3 : List (View.Piece (Elt F) S1x1x128 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ owns (c : Thread nD τ) arg5 fullShare g5
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ d, owns (c : Thread nD τ) arg5 fullShare d)) -∗ K ⟨⟩))
          ⊢ wp frame (wpE (defs₀ (F := F)) Variants.none c none) E (cc0__chamfer_body i arg1 harg1 arg2 harg2 arg3 harg3 arg4 harg4 arg5 harg5) K } := by
  refine ⟨?_, ?_, fun E K => ?run⟩
  case run =>
    simp only [cc0__chamfer_body_eq_skeleton]; unfold cc0__chamfer_body_skel
    unfold owns
    iintro ⟨⟨%f0, %hf0, H0⟩, ⟨%f1, %hf1, H1⟩, ⟨%d2, %f2, -, H2⟩, ⟨%d3, %f3, -, H3⟩, ⟨%f5, %hf5, H5⟩, Hk⟩
    obtain rfl := harg1.eq_unread hf0; obtain rfl := harg2.eq_unread hf1; obtain rfl := harg5.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexists _; isplitr
    swap; · iexact H5
    ipureintro; rfl

end Cert.KernelIdeal.Hand

end
-- ==== Proof.KI.Trip.lean ====
/-
  The sixteen trips of the body's loop, in closed form. Trip `k` reads rows 256k … 256k+255 of the first
  input block, multiplies that tile by the second block, stores into the same rows of the scratch the
  tile's minima over the thirty-two groups of 128 lanes, and folds into the carried value the tile's
  minima over its thirty-two groups of 8 sublanes. Neither depends on what the scratch held or on the
  carried value beyond that last fold, so the loop's state after `n` trips is a plain recursion: the
  carried column minima, and the row tiles stored so far, which after the last trip tile the scratch.
-/
import proofs.«144322_g85555748536873_cont_9to1_m_146_7_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Rows 256k … 256k+255 of the first input block. -/
def tileOf (x0 : Vec F S1x4096x8 .f32) (k : Fin k0_t1_loop.trips) : Vec F S1x256x8 .f32 :=
  View.ld x0 (Rect.unit (s := S1x4096x8) (k0_off1 k) S1x256x8.size (k0_off1_inb k))

/-- What a trip stores: from the second block as a matrix `v1` and a row tile `v30`, the tile's product with `v1`
    reduced by minimum over the thirty-two lane groups. -/
def rowTile (v1 : FVec F S8x4096 .f32) (v30 : Vec F S1x256x8 .f32) : FVec F S256x128 .f32 :=
  k0_pay22 (k0_pay8 v1 v30) (k0_pay9 v1 v30) (k0_pay10 v1 v30) (k0_pay11 v1 v30) (k0_pay12 v1 v30) (k0_pay13 v1 v30) (k0_pay14 v1 v30) (k0_pay15 v1 v30) (k0_pay16 v1 v30) (k0_pay17 v1 v30) (k0_pay18 v1 v30) (k0_pay19 v1 v30) (k0_pay20 v1 v30) (k0_pay21 v1 v30)

/-- The carried value after a trip: the value before it, folded with the tile's product reduced by minimum over its
    thirty-two sublane groups. -/
def colStepOf (v32 : FVec F S256x4096 .f32) (acc : FVec F S8x4096 .f32) : FVec F S8x4096 .f32 :=
  k0_pay4 acc (k0_pay23 v32) (k0_pay24 v32) (k0_pay41 v32) (k0_pay42 v32) (k0_pay43 v32) (k0_pay44 v32) (k0_pay45 v32) (k0_pay46 v32) (k0_pay47 v32)
    (k0_pay3 (k0_pay25 v32) (k0_pay26 v32) (k0_pay27 v32) (k0_pay28 v32) (k0_pay29 v32) (k0_pay30 v32) (k0_pay31 v32) (k0_pay32 v32) (k0_pay33 v32) (k0_pay34 v32) (k0_pay35 v32) (k0_pay36 v32) (k0_pay37 v32) (k0_pay38 v32) (k0_pay39 v32) (k0_pay40 v32))
def colStep (v1 : FVec F S8x4096 .f32) (v30 : Vec F S1x256x8 .f32) (acc : FVec F S8x4096 .f32) : FVec F S8x4096 .f32 :=
  colStepOf (k0_pay7 v1 v30) acc

/-- The rows of the scratch trip `k` stores into. -/
abbrev rowRect (k : Fin k0_t1_loop.trips) : Rect S4096x128 :=
  Rect.unit (s := S4096x128) (k0_off2 k) S256x128.size (k0_off2_inb k)

section OneTrip
variable (𝒱 : Variants) (c : Dev nD) (bd : Option 𝒱.V) (i : grid0.Coords) (arg1 : Memref sig .tc .vmem S1x4096x8 .f32) (harg1 : arg1.IsWhole) (arg2 : Memref sig .tc .vmem S1x8x4096 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S4096x128 .f32) (harg5 : arg5.IsWhole)
  (v0 : Vec F S1x8x4096 .f32) (x0 : Vec F S1x4096x8 .f32)

/-- A trip's yield is the column fold, whatever the scratch holds. -/
theorem tripR_eq (k : Fin k0_t1_loop.trips) (acc : FVec F S8x4096 .f32) (f : BufTy.Contents (Elt F) arg5.view.ty) :
    tripR_k0_t1 (F := F) 𝒱 c bd i arg1 harg1 arg2 harg2 arg3 harg3 arg4 harg4 arg5 harg5 v0 (harg1.unread x0) k acc f
      = colStep (k0_pay1 v0) (tileOf x0 k) acc := by
  unfold tripR_k0_t1 trip_k0_t1
  dsimp only
  sl_unfold_words
  simp only [View.readAt_eq_ld, harg1.read_unread]
  rfl

/-- A trip's one stored piece is the row tile at the trip's rows, whatever the scratch holds and whatever is carried. -/
theorem tripL_eq (k : Fin k0_t1_loop.trips) (acc : FVec F S8x4096 .f32) (f : BufTy.Contents (Elt F) arg5.view.ty) :
    tripL_k0_t1 (F := F) 𝒱 c bd i arg1 harg1 arg2 harg2 arg3 harg3 arg4 harg4 arg5 harg5 v0 (harg1.unread x0) k acc f
      = [⟨rowRect k, rowTile (k0_pay1 v0) (tileOf x0 k)⟩] := by
  unfold tripL_k0_t1 trip_k0_t1
  dsimp only
  sl_unfold_words
  simp only [View.readAt_eq_ld, harg1.read_unread]
  rfl
end OneTrip

/-- The carried column minima after `n` trips. -/
def colAcc (x0 : Vec F S1x4096x8 .f32) (v1 : FVec F S8x4096 .f32) : ℕ → FVec F S8x4096 .f32
  | 0 => k0_pay2
  | n + 1 => if h : n < k0_t1_loop.trips then colStep v1 (tileOf x0 ⟨n, h⟩) (colAcc x0 v1 n) else colAcc x0 v1 n

/-- The row tiles stored by the first `n` trips, last first. -/
def rowPieces (x0 : Vec F S1x4096x8 .f32) (v1 : FVec F S8x4096 .f32) : ℕ → List (View.Piece (Elt F) S4096x128 .f32)
  | 0 => []
  | n + 1 => if h : n < k0_t1_loop.trips then [⟨rowRect ⟨n, h⟩, rowTile v1 (tileOf x0 ⟨n, h⟩)⟩] ++ rowPieces x0 v1 n else rowPieces x0 v1 n

/-- The loop's state before trip `n` is the plain recursion: it depends neither on the scratch's contents at loop entry
    nor on anything but the two input blocks. -/
theorem st_eq (𝒱 : Variants) (c : Dev nD) (bd : Option 𝒱.V) (i : grid0.Coords) (arg1 : Memref sig .tc .vmem S1x4096x8 .f32) (harg1 : arg1.IsWhole) (arg2 : Memref sig .tc .vmem S1x8x4096 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S4096x128 .f32) (harg5 : arg5.IsWhole)
    (v0 : Vec F S1x8x4096 .f32) (x0 : Vec F S1x4096x8 .f32) (G : BufTy.Contents (Elt F) arg5.view.ty) (n : ℕ) :
    st_k0_t1 (F := F) 𝒱 c bd i arg1 harg1 arg2 harg2 arg3 harg3 arg4 harg4 arg5 harg5 v0 (harg1.unread x0) G k0_pay2 n
      = (colAcc x0 (k0_pay1 v0) n, rowPieces x0 (k0_pay1 v0) n) := by
  induction n with
  | zero => rfl
  | succ n ih =>
    rw [st_k0_t1.eq_2, ih]; unfold st_k0_t1Step
    by_cases h : n < k0_t1_loop.trips
    · rw [dif_pos h]; dsimp only
      rw [tripR_eq, tripL_eq, colAcc, rowPieces, dif_pos h, dif_pos h]
    · rw [dif_neg h, colAcc, rowPieces, dif_neg h, dif_neg h]

theorem trips_eq : Scf.trips k0_t1_loop.lb k0_t1_loop.ub k0_t1_loop.st = 16 := by decide

/-- After the sixteenth trip the stored row tiles tile the scratch. -/
theorem rowPieces_cover (x0 : Vec F S1x4096x8 .f32) (v1 : FVec F S8x4096 .f32) (y : S4096x128.Idx) :
    ∃ pc ∈ rowPieces x0 v1 16, y ∈ pc.1.set :=
  View.cover_of_tiledL (rowPieces x0 v1 16) S256x128.size (by sl_kernel_rfl) y

/-- The scratch after the loop, as one array: row tile `k` in rows 256k … 256k+255. -/
def rowsAll (x0 : Vec F S1x4096x8 .f32) (v1 : FVec F S8x4096 .f32) : Vec F S4096x128 .f32 :=
  View.canon (rowPieces x0 v1 16)

end Cert.KernelIdeal.Hand

end
-- ==== Proof.KI.Frame.lean ====
/-
  The frame of the program: every weakly fair execution of @main ends, faulting nowhere, with the two
  argument arrays as launched — and with every array of the region named. At grid point `t` (batch `t`)
  the body leaves in the first output block the sum over the 4096 rows of the clamped row minima of the
  scratch, and in the second the sum over the 4096 columns of the clamped column minima of the carried
  value, each broadcast over the block's 128 lanes; both are functions of the point's two input blocks
  alone. The scratch is the kernel's own: handed over at some contents and given back at some contents.
-/
import proofs.«144322_g85555748536873_cont_9to1_m_146_7_alg».proof.Proof.KI.Trip
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole-block rectangle of an output block. -/
abbrev rOut : Rect S1x1x128 := Rect.unit (s := S1x1x128) ![0, 0, 0] S1x1x128.size inb_S1x1x128_S1x1x128_0_0_0

/-- What the body leaves in the first output block: from the scratch after the loop, the clamped row minima summed. -/
def out2 (x0 : Vec F S1x4096x8 .f32) (x1 : Vec F S1x8x4096 .f32) : Vec F S1x1x128 .f32 :=
  k0_pay5 (rowsAll x0 (k0_pay1 x1))
/-- What the body leaves in the second output block: from the carried value after the loop, the clamped column minima summed. -/
def out3 (x0 : Vec F S1x4096x8 .f32) (x1 : Vec F S1x8x4096 .f32) : Vec F S1x1x128 .f32 :=
  k0_pay6 (colAcc x0 (k0_pay1 x1) 16)

theorem hz3 : (![0, 0, 0] : Fin S1x8x4096.rank → Nat) = fun _ => 0 := by
  funext a; match a with | ⟨0, _⟩ => rfl | ⟨1, _⟩ => rfl | ⟨2, _⟩ => rfl
theorem hzO : (![0, 0, 0] : Fin S1x1x128.rank → Nat) = fun _ => 0 := by
  funext a; match a with | ⟨0, _⟩ => rfl | ⟨1, _⟩ => rfl | ⟨2, _⟩ => rfl
theorem hz2 : (![0, 0] : Fin S4096x128.rank → Nat) = fun _ => 0 := by
  funext a; match a with | ⟨0, _⟩ => rfl | ⟨1, _⟩ => rfl

section Pieces
variable (c : Dev nD) (i : grid0.Coords) (arg1 : Memref sig .tc .vmem S1x4096x8 .f32) (harg1 : arg1.IsWhole) (arg2 : Memref sig .tc .vmem S1x8x4096 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S4096x128 .f32) (harg5 : arg5.IsWhole)
  (x0 : Vec F S1x4096x8 .f32) (x1 : Vec F S1x8x4096 .f32) (g5 : Vec F S4096x128 .f32)

/-- The second block read whole is the block. -/
theorem ld_x1 : View.readAt (Elt F) arg2.view (Rect.unit (s := S1x8x4096) ![0, 0, 0] S1x8x4096.size inb_S1x8x4096_S1x8x4096_0_0_0).toLoadRect (harg2.unread x1) = x1 := by
  rw [View.readAt_eq_ld, harg2.read_unread, View.ld_unit_zero (S := S1x8x4096) hz3]

/-- The run's one piece for the first output: the whole block at `out2`, whatever the scratch held. -/
theorem run_L2 : (kernelRun c i arg1 harg1 arg2 harg2 arg3 harg3 arg4 harg4 arg5 harg5 x0 x1 g5).1 = [⟨rOut, out2 x0 x1⟩] := by
  show [(⟨rOut, k0_pay5 (kernelRun.sl.v5 c i arg1 harg1 arg2 harg2 arg3 harg3 arg4 harg4 arg5 harg5 x0 x1 g5)⟩ : View.Piece (Elt F) S1x1x128 .f32)] = _
  unfold out2 rowsAll
  refine congrArg (fun v => [(⟨rOut, k0_pay5 v⟩ : View.Piece (Elt F) S1x1x128 .f32)]) ?_
  unfold kernelRun.sl.v5
  rw [View.readAt_eq_ld, trips_eq, st_eq, ld_x1 (harg2 := harg2)]
  dsimp only
  rw [View.read_writes_eq_canon _ _ _ (rowPieces_cover x0 (k0_pay1 x1)), View.ld_unit_zero (S := S4096x128) hz2]

/-- The run's one piece for the second output: the whole block at `out3`. -/
theorem run_L3 : (kernelRun c i arg1 harg1 arg2 harg2 arg3 harg3 arg4 harg4 arg5 harg5 x0 x1 g5).2.1 = [⟨rOut, out3 x0 x1⟩] := by
  show [(⟨rOut, k0_pay6 (st_k0_t1 (F := F) Variants.none c none i arg1 harg1 arg2 harg2 arg3 harg3 arg4 harg4 arg5 harg5 _ (harg1.unread x0) (harg5.unread g5) k0_pay2 _).1⟩ : View.Piece (Elt F) S1x1x128 .f32)] = _
  unfold out3
  rw [trips_eq, st_eq, ld_x1 (harg2 := harg2)]
end Pieces

/-- One whole-block store covers the block. -/
theorem cover_out (p : Vec F S1x1x128 .f32) (y : S1x1x128.Idx) :
    ∃ pc ∈ ([⟨rOut, p⟩] : List (View.Piece (Elt F) S1x1x128 .f32)), y ∈ pc.1.set :=
  ⟨_, List.mem_singleton_self _, View.mem_set_unit_zero hzO inb_S1x1x128_S1x1x128_0_0_0 y⟩

/-! ## The pipeline's proof data -/

/-- The proof data of the one pipeline on core `c`: the arrays as the region finds them; after the body at point `t`
    each input's buffer at its block, each output's at the body's value of the two input blocks; the invariant the
    scratch at some contents and the generator register at some state; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
    | ⟨3, _⟩ => out3 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 (iblk m c 0 t) (iblk m c 1 t) := by dsimp only [dats]
theorem after0_3 (c : Dev nD) (t : Fin cfg0.N) : (dats m 0 c).after 3 t = out3 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1600000 in
/-- The body at any point: the inputs' buffers hold their blocks, the invariant lends the scratch at some contents, the
    run applies at those contents, and each output's buffer ends at its one covering store. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3,
    show (dats m 0 c).Φ t.castSucc = Pipeline.ΦA spec0 c from rfl, PhiA0_eq]
  iintro ⟨⟨⟨%g5, HS⟩, Hg⟩, Ho, ⟨%d0, H0⟩, ⟨%d1, H1⟩, ⟨%d2, H2⟩, ⟨%d3, H3⟩⟩
  iapply ((kernelRun c (grid0.coords t) _ (hs0_0 t) _ (hs0_1 t) _ (hs0_2 t) _ (hs0_3 t) scM0_0 (Memref.isWhole_whole _) (iblk m c 0 t) (iblk m c 1 t) g5).2.2 Set.univ _)
  isplitl [H0]; · iexact H0
  isplitl [H1]; · iexact H1
  isplitl [H2]; · iexists _; iexact H2
  isplitl [H3]; · iexists _; iexact H3
  isplitl [HS]; · iexact HS
  iintro ⟨H0, H1, ⟨%e2, H2⟩, ⟨%e3, H3⟩, HS⟩
  isplitl [HS Hg]
  · isplitl [HS]; · iexact HS
    iexact Hg
  isplitl [Ho]; · iexact Ho
  isplitl [H0]; · iexact H0
  isplitl [H1]; · iexact H1
  isplitl [H2]
  · unfold owns; iexists _; isplitr
    swap; · iexact H2
    ipureintro
    rw [run_L2, View.read_writes_eq_canon _ _ _ (cover_out _), View.canon_unit_zero (S := S1x1x128) hzO]
  · unfold owns; iexists _; isplitr
    swap; · iexact H3
    ipureintro
    rw [run_L3, View.read_writes_eq_canon _ _ _ (cover_out _), View.canon_unit_zero (S := S1x1x128) hzO]

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the region at what the
    proof data's blocks assemble to and every other unscoped buffer as the later host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Hand

end
-- ==== Proof.Spec.lean ====
/-
  The mathematics both programs compute, over the extended reals. Two clouds of 4096 points in
  three dimensions, in eight batches. The reference forms every clamped squared distance
  max(|p|² + |q|² - 2 p·q, 0), takes for each point of the first cloud its minimum over the second
  and for each point of the second its minimum over the first, and adds the two means. The kernel
  gets |p|² + |q|² - 2 p·q as ONE product of eight-entry rows — a point's coordinates beside its
  squared norm, the norm's rounding remainder (zero here, where a change of format is the identity)
  and constants, against the other point's doubled negated coordinates, constants and its norm —,
  takes the minima first and clamps afterwards. On finite inputs the eight-term product is the
  three-term expression (the extended reals distribute and cancel at finite values), and clamping
  commutes with a minimum, so the two agree sum by sum.
-/
import Idealize.ShloMosaic.PureOps.Ideal
import Idealize.ShloMosaic.Lib.ValueIdx

noncomputable section

open scoped BigOperators

namespace Cert.Chamfer

open Idealize.ShloMosaic Idealize.ShloMosaic.ValueIdx

/-- A batch of point clouds by coordinates: batch, point, axis. -/
abbrev Cloud := Fin 8 → Fin 4096 → Fin 3 → EReal

/-- An array of shape [8, 4096, 3] read as a cloud. -/
def cloud (a : (⟨3, ![8, 4096, 3]⟩ : Shape).Idx → EReal) : Cloud := fun b n d => a (ix3 b n d)

/-- A cloud is finite when no coordinate is an infinity. -/
def Finite (x : Cloud) : Prop := ∀ b n d, x b n d ≠ ⊤ ∧ x b n d ≠ ⊥

/-- The squared norm of point `n` of batch `b`. -/
def sq (x : Cloud) (b : Fin 8) (n : Fin 4096) : EReal := ∑ d : Fin 3, x b n d * x b n d

/-- The inner product of point `n` of `x` and point `m` of `y`. -/
def dot (x y : Cloud) (b : Fin 8) (n m : Fin 4096) : EReal := ∑ d : Fin 3, x b n d * y b m d

/-- The reference's clamped squared distance. -/
def dist (x y : Cloud) (b : Fin 8) (n m : Fin 4096) : EReal :=
  max ((sq x b n + sq y b m) - 2 * dot x y b n m) 0

/-- The kernel's row for a point of the first cloud: coordinates, squared norm, its remainder, 1, 1, 0. -/
def augL (x : Cloud) (b : Fin 8) (n : Fin 4096) : Fin 8 → EReal :=
  ![x b n 0, x b n 1, x b n 2, sq x b n, sq x b n - sq x b n, 1, 1, 0]

/-- The kernel's row for a point of the second cloud: -2 times the coordinates, 1, 1, squared norm, its remainder, 0. -/
def augR (y : Cloud) (b : Fin 8) (m : Fin 4096) : Fin 8 → EReal :=
  ![-2 * y b m 0, -2 * y b m 1, -2 * y b m 2, 1, 1, sq y b m, sq y b m - sq y b m, 0]

/-- The kernel's pairwise value: the product of the two rows. -/
def pair (x y : Cloud) (b : Fin 8) (n m : Fin 4096) : EReal := ∑ k : Fin 8, augL x b n k * augR y b m k

/-- The reference's two sums: over the first cloud's points of the minimum over the second, and the other way round. -/
def refRows (x y : Cloud) : EReal := ∑ b : Fin 8, ∑ n : Fin 4096, ⨅ m : Fin 4096, dist x y b n m
def refCols (x y : Cloud) : EReal := ∑ b : Fin 8, ∑ m : Fin 4096, ⨅ n : Fin 4096, dist x y b n m

/-- The kernel's two sums: the minimum first, the clamp at zero after it. -/
def kerRows (x y : Cloud) : EReal := ∑ b : Fin 8, ∑ n : Fin 4096, max (⨅ m : Fin 4096, pair x y b n m) 0
def kerCols (x y : Cloud) : EReal := ∑ b : Fin 8, ∑ m : Fin 4096, max (⨅ n : Fin 4096, pair x y b n m) 0

/-- The two means added: each sum, from the zero word, divided by 32768 = 8 · 4096, as both programs spell it. -/
def total (S1 S2 : EReal) : EReal :=
  FloatOps.addf (F := Ideal) (φ := .f32)
    (FloatOps.hostDivf (F := Ideal) (φ := .f32) (Ideal.ofBits .f32 0x00000000#32 + S1) (Ideal.ofBits .f32 0x47000000#32))
    (FloatOps.hostDivf (F := Ideal) (φ := .f32) (Ideal.ofBits .f32 0x00000000#32 + S2) (Ideal.ofBits .f32 0x47000000#32))

end Cert.Chamfer

end
-- ==== Proof.KI.Arrays.lean ====
/-
  From blocks to arrays. Grid point `t` is batch `t`: each input window's block at the point is batch `t` of
  its array, and each output window's block is row `t` of its [8, 1, 128] array; the eight blocks tile the
  array, so after the region the output array holds at batch `b` what the body left at point `b`.
-/
import proofs.«144322_g85555748536873_cont_9to1_m_146_7_alg».proof.Proof.KI.Frame
import proofs.«144322_g85555748536873_cont_9to1_m_146_7_alg».proof.Proof.Spec
import Idealize.ShloMosaic.Lib.Pipeline.Value
import Idealize.ShloMosaic.Lib.ValueIdx

set_option maxRecDepth 16384

noncomputable section

open scoped BigOperators

namespace Cert.KernelIdeal.Arrays

open Cert.KernelIdeal Cert.KernelIdeal.Gen Cert.KernelIdeal.Hand
open Idealize.ShloMosaic Idealize.ShloMosaic.TcCoe Idealize.ShloMosaic.ValueIdx Idealize.SL.Sem Cert.Chamfer

variable (m : (ℓ : Loc nD τ sig) → Buf (Elt Ideal) ℓ)

/-- The first input window's block index at point `t` is `(t, 0, 0)`. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
/-- The second input window's. -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
/-- The first output window's. -/
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
/-- The second output window's. -/
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

/-- The first input's block at point `t` is batch `t` of the array the region finds. -/
theorem iblk0_apply (c : Dev nD) (t : Fin cfg0.N) (h : t.val < 8) (r : Fin 4096) (k : Fin 8) :
    (iblk (F := Ideal) m c 0 t : S1x4096x8.Idx → EReal) (ix3 0 r k)
      = (V (F := Ideal) m c main_v16 : S8x4096x8.Idx → EReal) (ix3 ⟨t.val, h⟩ r k) := by
  obtain ⟨e0, e1, e2⟩ := idx0 t
  unfold iblk
  rw [View.read_apply]
  show V m c main_v16 _ = V m c main_v16 _
  congr 1
  funext a
  apply Fin.ext
  match a with
  | ⟨0, _⟩ => show win0_0.index t (0 : Fin 3) * 1 + 1 * (0 : Fin 1).val = t.val; rw [e0]; omega
  | ⟨1, _⟩ => show win0_0.index t (1 : Fin 3) * 4096 + 1 * r.val = r.val; rw [e1]; omega
  | ⟨2, _⟩ => show win0_0.index t (2 : Fin 3) * 8 + 1 * k.val = k.val; rw [e2]; omega

/-- The second input's block at point `t` is batch `t` of the array the region finds. -/
theorem iblk1_apply (c : Dev nD) (t : Fin cfg0.N) (h : t.val < 8) (k : Fin 8) (cc : Fin 4096) :
    (iblk (F := Ideal) m c 1 t : S1x8x4096.Idx → EReal) (ix3 0 k cc)
      = (V (F := Ideal) m c main_v20 : S8x8x4096.Idx → EReal) (ix3 ⟨t.val, h⟩ k cc) := by
  obtain ⟨e0, e1, e2⟩ := idx1 t
  unfold iblk
  rw [View.read_apply]
  show V m c main_v20 _ = V m c main_v20 _
  congr 1
  funext a
  apply Fin.ext
  match a with
  | ⟨0, _⟩ => show win0_1.index t (0 : Fin 3) * 1 + 1 * (0 : Fin 1).val = t.val; rw [e0]; omega
  | ⟨1, _⟩ => show win0_1.index t (1 : Fin 3) * 8 + 1 * k.val = k.val; rw [e1]; omega
  | ⟨2, _⟩ => show win0_1.index t (2 : Fin 3) * 4096 + 1 * cc.val = cc.val; rw [e2]; omega

/-- The batch coordinate of an index of an output array is a grid point. -/
theorem batch_lt (i : S8x1x128.Idx) : (i 0).val < cfg0.N := by
  rw [show cfg0.N = 8 from N_0]; exact (i 0).isLt

/-- What the first output array ends holding: at batch `b`, lane `l`, what the body left at point `b` in lane `l`. -/
def G2 (c : Dev nD) : S8x1x128.Idx → EReal := fun i =>
  (out2 (F := Ideal) (iblk m c 0 ⟨(i 0).val, batch_lt i⟩) (iblk m c 1 ⟨(i 0).val, batch_lt i⟩) : S1x1x128.Idx → EReal) (ix3 0 0 (i 2))
/-- The same for the second output array. -/
def G3 (c : Dev nD) : S8x1x128.Idx → EReal := fun i =>
  (out3 (F := Ideal) (iblk m c 0 ⟨(i 0).val, batch_lt i⟩) (iblk m c 1 ⟨(i 0).val, batch_lt i⟩) : S1x1x128.Idx → EReal) (ix3 0 0 (i 2))

/-- An index of a [1, 1, 128] block is its lane. -/
theorem lane_ix (j : S1x1x128.Idx) (l : Fin 128) (h : l.val = (j 2).val) : (ix3 0 0 l : S1x1x128.Idx) = j := by
  funext a
  apply Fin.ext
  match a with
  | ⟨0, _⟩ => have : (j 0).val < 1 := (j 0).isLt; show 0 = (j 0).val; omega
  | ⟨1, _⟩ => have : (j 1).val < 1 := (j 1).isLt; show 0 = (j 1).val; omega
  | ⟨2, _⟩ => exact h

/-- At an index of batch `t`, the first array function is the body's value at point `t`. -/
theorem G2_at (c : Dev nD) (t : Fin cfg0.N) (i : S8x1x128.Idx) (j : S1x1x128.Idx)
    (h0 : (i 0).val = t.val) (h2 : (i 2).val = (j 2).val) :
    G2 m c i = (out2 (F := Ideal) (iblk m c 0 t) (iblk m c 1 t) : S1x1x128.Idx → EReal) j := by
  obtain ⟨tv, ht⟩ := t
  have h0' : (i 0).val = tv := h0
  subst h0'
  unfold G2
  rw [lane_ix j (i 2) h2]
/-- The same for the second. -/
theorem G3_at (c : Dev nD) (t : Fin cfg0.N) (i : S8x1x128.Idx) (j : S1x1x128.Idx)
    (h0 : (i 0).val = t.val) (h2 : (i 2).val = (j 2).val) :
    G3 m c i = (out3 (F := Ideal) (iblk m c 0 t) (iblk m c 1 t) : S1x1x128.Idx → EReal) j := by
  obtain ⟨tv, ht⟩ := t
  have h0' : (i 0).val = tv := h0
  subst h0'
  unfold G3
  rw [lane_ix j (i 2) h2]

/-- What point `t` writes back to the first output array is block `t` of `G2`. -/
theorem flushed2_eq (c : Dev nD) (t : Fin cfg0.N) :
    (dats (F := Ideal) m 0 c).flushed 2 t = ((cfg0.win 2).blk t).view.read (Elt Ideal) (G2 m c) := by
  show (cfg0.win 2).cut (grid0.coords t) ((dats (F := Ideal) m 0 c).after 2 t) = _
  rw [after0_2]
  obtain ⟨e0, e1, e2⟩ := idx2 t
  funext j
  rw [View.read_apply, cast_eq]
  show (out2 (F := Ideal) (iblk m c 0 t) (iblk m c 1 t) : S1x1x128.Idx → EReal) j = G2 m c (((cfg0.win 2).blk t).view.emb j)
  refine (G2_at m c t _ j ?_ ?_).symm
  · show win0_2.index t (0 : Fin 3) * 1 + 1 * (j 0).val = t.val
    have : (j 0).val < 1 := (j 0).isLt
    rw [e0]; omega
  · show win0_2.index t (2 : Fin 3) * 128 + 1 * (j 2).val = (j 2).val
    rw [e2]; omega
/-- The same for the second. -/
theorem flushed3_eq (c : Dev nD) (t : Fin cfg0.N) :
    (dats (F := Ideal) m 0 c).flushed 3 t = ((cfg0.win 3).blk t).view.read (Elt Ideal) (G3 m c) := by
  show (cfg0.win 3).cut (grid0.coords t) ((dats (F := Ideal) m 0 c).after 3 t) = _
  rw [after0_3]
  obtain ⟨e0, e1, e2⟩ := idx3 t
  funext j
  rw [View.read_apply, cast_eq]
  show (out3 (F := Ideal) (iblk m c 0 t) (iblk m c 1 t) : S1x1x128.Idx → EReal) j = G3 m c (((cfg0.win 3).blk t).view.emb j)
  refine (G3_at m c t _ j ?_ ?_).symm
  · show win0_3.index t (0 : Fin 3) * 1 + 1 * (j 0).val = t.val
    have : (j 0).val < 1 := (j 0).isLt
    rw [e0]; omega
  · show win0_3.index t (2 : Fin 3) * 128 + 1 * (j 2).val = (j 2).val
    rw [e2]; omega

/-- An index of the first output array is in point `t`'s block iff each coordinate is in the block's range on its axis. -/
theorem mem_blk2 (t : Fin cfg0.N) (i : S8x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v21_0).slice (win0_2.rect t)).set ↔ _
  rw [View.set_slice_whole, Rect.mem_set_unit]
  exact Iff.rfl
/-- The same for the second. -/
theorem mem_blk3 (t : Fin cfg0.N) (i : S8x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v21_1).slice (win0_3.rect t)).set ↔ _
  rw [View.set_slice_whole, Rect.mem_set_unit]
  exact Iff.rfl

/-- Every index of the first output array is in the block of the point of its batch. -/
theorem cover2 (i : S8x1x128.Idx) : ∃ t : Fin cfg0.N, (cfg0.win 2).flush t = true ∧ i ∈ ((cfg0.win 2).blk t).view.set := by
  refine ⟨⟨(i 0).val, batch_lt i⟩, flush0_2 _, ?_⟩
  rw [mem_blk2]
  obtain ⟨e0, e1, e2⟩ := idx2 ⟨(i 0).val, batch_lt i⟩
  have e0 : win0_2.index ⟨(i 0).val, batch_lt i⟩ (0 : Fin 3) = (i 0).val := e0
  have h1 : (i 1).val < 1 := (i 1).isLt
  have h2 : (i 2).val < 128 := (i 2).isLt
  intro a
  match a with
  | ⟨0, _⟩ => show win0_2.index ⟨(i 0).val, batch_lt i⟩ (0 : Fin 3) * 1 ≤ (i 0).val ∧ (i 0).val < win0_2.index ⟨(i 0).val, batch_lt i⟩ (0 : Fin 3) * 1 + 1; rw [e0]; omega
  | ⟨1, _⟩ => show win0_2.index ⟨(i 0).val, batch_lt i⟩ (1 : Fin 3) * 1 ≤ (i 1).val ∧ (i 1).val < win0_2.index ⟨(i 0).val, batch_lt i⟩ (1 : Fin 3) * 1 + 1; rw [e1]; omega
  | ⟨2, _⟩ => show win0_2.index ⟨(i 0).val, batch_lt i⟩ (2 : Fin 3) * 128 ≤ (i 2).val ∧ (i 2).val < win0_2.index ⟨(i 0).val, batch_lt i⟩ (2 : Fin 3) * 128 + 128; rw [e2]; omega
/-- The same for the second. -/
theorem cover3 (i : S8x1x128.Idx) : ∃ t : Fin cfg0.N, (cfg0.win 3).flush t = true ∧ i ∈ ((cfg0.win 3).blk t).view.set := by
  refine ⟨⟨(i 0).val, batch_lt i⟩, flush0_3 _, ?_⟩
  rw [mem_blk3]
  obtain ⟨e0, e1, e2⟩ := idx3 ⟨(i 0).val, batch_lt i⟩
  have e0 : win0_3.index ⟨(i 0).val, batch_lt i⟩ (0 : Fin 3) = (i 0).val := e0
  have h1 : (i 1).val < 1 := (i 1).isLt
  have h2 : (i 2).val < 128 := (i 2).isLt
  intro a
  match a with
  | ⟨0, _⟩ => show win0_3.index ⟨(i 0).val, batch_lt i⟩ (0 : Fin 3) * 1 ≤ (i 0).val ∧ (i 0).val < win0_3.index ⟨(i 0).val, batch_lt i⟩ (0 : Fin 3) * 1 + 1; rw [e0]; omega
  | ⟨1, _⟩ => show win0_3.index ⟨(i 0).val, batch_lt i⟩ (1 : Fin 3) * 1 ≤ (i 1).val ∧ (i 1).val < win0_3.index ⟨(i 0).val, batch_lt i⟩ (1 : Fin 3) * 1 + 1; rw [e1]; omega
  | ⟨2, _⟩ => show win0_3.index ⟨(i 0).val, batch_lt i⟩ (2 : Fin 3) * 128 ≤ (i 2).val ∧ (i 2).val < win0_3.index ⟨(i 0).val, batch_lt i⟩ (2 : Fin 3) * 128 + 128; rw [e2]; omega

/-- After the region the first output array is `G2`. -/
theorem final2 (c : Dev nD) : (dats (F := Ideal) m 0 c).arrAt 2 cfg0.N = G2 m c :=
  (dats (F := Ideal) m 0 c).arrAt_eq_of_cover 2 (G2 m c) (fun t _ => flushed2_eq m c t) cover2
/-- After the region the second output array is `G3`. -/
theorem final3 (c : Dev nD) : (dats (F := Ideal) m 0 c).arrAt 3 cfg0.N = G3 m c :=
  (dats (F := Ideal) m 0 c).arrAt_eq_of_cover 3 (G3 m c) (fun t _ => flushed3_eq m c t) cover3

/-- After the region the first output array holds at batch `b` what the body left in its block at point `b`. -/
theorem arr2_apply (c : Dev nD) (b : Fin 8) (hb : b.val < cfg0.N) (l : Fin 128) :
    ((dats (F := Ideal) m 0 c).arrAt 2 cfg0.N : S8x1x128.Idx → EReal) (ix3 b 0 l)
      = (out2 (F := Ideal) (iblk m c 0 ⟨b.val, hb⟩) (iblk m c 1 ⟨b.val, hb⟩) : S1x1x128.Idx → EReal) (ix3 0 0 l) := by
  rw [final2]
  exact G2_at m c ⟨b.val, hb⟩ (ix3 b 0 l) (ix3 0 0 l) rfl rfl

/-- The same for the second output array. -/
theorem arr3_apply (c : Dev nD) (b : Fin 8) (hb : b.val < cfg0.N) (l : Fin 128) :
    ((dats (F := Ideal) m 0 c).arrAt 3 cfg0.N : S8x1x128.Idx → EReal) (ix3 b 0 l)
      = (out3 (F := Ideal) (iblk m c 0 ⟨b.val, hb⟩) (iblk m c 1 ⟨b.val, hb⟩) : S1x1x128.Idx → EReal) (ix3 0 0 l) := by
  rw [final3]
  exact G3_at m c ⟨b.val, hb⟩ (ix3 b 0 l) (ix3 0 0 l) rfl rfl

end Cert.KernelIdeal.Arrays

end
-- ==== Proof.KI.Tail.lean ====
/-
  The host operations after the region: of each of the two [8, 1, 128] results take lane 0 of every batch,
  sum the eight values from zero, divide by 32768, and add the two quotients.
-/
import proofs.«144322_g85555748536873_cont_9to1_m_146_7_alg».proof.Proof.KI.Frame
import proofs.«144322_g85555748536873_cont_9to1_m_146_7_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Tail

open Cert.KernelIdeal Cert.KernelIdeal.Gen Cert.KernelIdeal.Hand
open Idealize.ShloMosaic Idealize.ShloMosaic.TcCoe Idealize.ShloMosaic.ValueIdx Idealize.SL.Sem Cert.Chamfer

variable (m : (ℓ : Loc nD τ sig) → Buf (Elt Ideal) ℓ)

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- One output's share: lane 0 of each of the eight batches, summed from the initial word. -/
theorem sum_lane0 (A : S8x1x128.Idx → EReal) (i : S_.Idx) :
    Host.reduceAdd (F := Ideal) (φ := .f32)
        (shapeCast S8 (extractStridedSlice S8x1x1 ![0, 0, 0] A slices_S8x1x128_S8x1x1_0_0_0) shapeCasts_S8x1x1_S8)
        (constant S_ .f32 0x00000000#32) reducesTo_S8_S_d0 h_S_ i
      = Ideal.ofBits .f32 0x00000000#32 + ∑ b : Fin 8, A (ix3 b 0 0) := by
  simp only [Host.reduceAdd, Ideal.hostReduceAdd_def]
  rw [Ideal.hostReduceAdd_total reducesTo_S8_S_d0 (fun b => b.elim0), sum_idx1]
  refine congrArg₂ (· + ·) rfl (Finset.sum_congr rfl fun k _ => ?_)
  -- the reshape keeps the row-major position: batch k of [8] is (k, 0, 0) of [8, 1, 1]
  refine (shapeCast_apply _ shapeCasts_S8x1x1_S8 _ (ix3 k 0 0) ?_).trans ?_
  · rw [Shape.rowMajor_val_three, Shape.rowMajor_val_one]
    show (k.val * 1 + 0) * 1 + 0 = k.val
    omega
  -- the slice starts at the origin: (k, 0, 0) of the slice is (k, 0, 0) of the array
  · exact extractStridedSlice_apply _ A slices_S8x1x128_S8x1x1_0_0_0 (ix3 k 0 0) (ix3 k 0 0) (fun a => match a with
      | ⟨0, _⟩ => by show k.val = 0 + k.val; omega
      | ⟨1, _⟩ => by show 0 = 0 + 0; rfl
      | ⟨2, _⟩ => by show 0 = 0 + 0; rfl)

/-- The later host operations from any contents: the two shares, each divided by 32768, added. -/
theorem tail_after (W : Valuation τ sig (Elt Ideal)) :
    (StableHlo.after hostOps1 W (Proc.devRef .tc main_v30) : S_.Idx → EReal)
      = fun _ => total (∑ b : Fin 8, (W (Proc.devRef .tc main_v21_0) : S8x1x128.Idx → EReal) (ix3 b 0 0))
                       (∑ b : Fin 8, (W (Proc.devRef .tc main_v21_1) : S8x1x128.Idx → EReal) (ix3 b 0 0)) := by
  after_results
  funext i
  show FloatOps.addf (F := Ideal) (φ := .f32)
      (FloatOps.hostDivf (F := Ideal) (φ := .f32)
        (Host.reduceAdd (F := Ideal) (φ := .f32)
          (shapeCast S8 (extractStridedSlice S8x1x1 ![0, 0, 0] (W (Proc.devRef .tc main_v21_0) : S8x1x128.Idx → EReal) slices_S8x1x128_S8x1x1_0_0_0) shapeCasts_S8x1x1_S8)
          (constant S_ .f32 0x00000000#32) reducesTo_S8_S_d0 h_S_ i)
        (Ideal.ofBits .f32 0x47000000#32))
      (FloatOps.hostDivf (F := Ideal) (φ := .f32)
        (Host.reduceAdd (F := Ideal) (φ := .f32)
          (shapeCast S8 (extractStridedSlice S8x1x1 ![0, 0, 0] (W (Proc.devRef .tc main_v21_1) : S8x1x128.Idx → EReal) slices_S8x1x128_S8x1x1_0_0_0) shapeCasts_S8x1x1_S8)
          (constant S_ .f32 0x00000000#32) reducesTo_S8_S_d0 h_S_ i)
        (Ideal.ofBits .f32 0x47000000#32)) = _
  rw [sum_lane0, sum_lane0]
  rfl

/-- The program's result after the later host operations, from the two output arrays as the region leaves them. -/
theorem tail_value (c : Dev nD) :
    (Pipeline.afterTail₀ cfgs (dats (F := Ideal) m) 0 (V0 m) [hostOps1] c main_v30 : S_.Idx → EReal)
      = fun _ => total (∑ b : Fin 8, ((dats (F := Ideal) m 0 c).arrAt 2 cfg0.N : S8x1x128.Idx → EReal) (ix3 b 0 0))
                       (∑ b : Fin 8, ((dats (F := Ideal) m 0 c).arrAt 3 cfg0.N : S8x1x128.Idx → EReal) (ix3 b 0 0)) := by
  unfold Pipeline.afterTail₀
  refine (tail_after _).trans ?_
  exact congrArg₂ (fun A B : S8x1x128.Idx → EReal => fun _ : S_.Idx =>
      total (∑ b : Fin 8, A (ix3 b 0 0)) (∑ b : Fin 8, B (ix3 b 0 0)))
    (Pipeline.withArrays_arr spec0 launch0.win.arr_inj c _ _ 2)
    (Pipeline.withArrays_arr spec0 launch0.win.arr_inj c _ _ 3)

end Cert.KernelIdeal.Tail

end
-- ==== Proof.KI.TileValue.lean ====
/-
  One trip's arithmetic at the extended reals, entry by entry. The tile's product with the second block is
  the plain sum over the eight augmented coordinates; the thirty-two-leaf balanced trees of minima over
  lane groups (row side) and over sublane groups (column side) are minima over the group index.
-/
import proofs.«144322_g85555748536873_cont_9to1_m_146_7_alg».proof.Proof.KI.Trip
import proofs.«144322_g85555748536873_cont_9to1_m_146_7_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.TileValue

open Cert.KernelIdeal Cert.KernelIdeal.Gen Cert.KernelIdeal.Hand
open Idealize.ShloMosaic Idealize.ShloMosaic.TcCoe Idealize.ShloMosaic.ValueIdx Idealize.SL.Sem Cert.Chamfer

/-- The product's left operand is read at the output's row: axis 0 of the left operand is its one free axis. -/
theorem lhs_pay7_0 (i : S256x4096.Idx) (q : dot_S256x8_S8x4096_S256x4096_1_0_0_1_n_n.contr.Idx) :
    (dot_S256x8_S8x4096_S256x4096_1_0_0_1_n_n.lhsIdx i q 0).val = (i 0).val := by
  unfold DotDims.lhsIdx
  rw [dif_neg (show ¬(0 : Fin S256x8.rank) ∈ dot_S256x8_S8x4096_S256x4096_1_0_0_1_n_n.lhsBatch by decide), dif_pos (show (0 : Fin S256x8.rank) ∈ dot_S256x8_S8x4096_S256x4096_1_0_0_1_n_n.lhsNonContracting by decide)]
  rfl
/-- Axis 1 of the left operand is the contracted one. -/
theorem lhs_pay7_1 (i : S256x4096.Idx) (q : dot_S256x8_S8x4096_S256x4096_1_0_0_1_n_n.contr.Idx) :
    (dot_S256x8_S8x4096_S256x4096_1_0_0_1_n_n.lhsIdx i q 1).val = (q ⟨0, by decide⟩).val :=
  dot_S256x8_S8x4096_S256x4096_1_0_0_1_n_n.lhsIdx_val_of_single rfl i q
/-- Axis 0 of the right operand is the contracted one. -/
theorem rhs_pay7_0 (i : S256x4096.Idx) (q : dot_S256x8_S8x4096_S256x4096_1_0_0_1_n_n.contr.Idx) :
    (dot_S256x8_S8x4096_S256x4096_1_0_0_1_n_n.rhsIdx i q 0).val = (q ⟨0, by decide⟩).val :=
  dot_S256x8_S8x4096_S256x4096_1_0_0_1_n_n.rhsIdx_val_of_single rfl i q
/-- The right operand is read at the output's column: axis 1 of the right operand is its one free axis. -/
theorem rhs_pay7_1 (i : S256x4096.Idx) (q : dot_S256x8_S8x4096_S256x4096_1_0_0_1_n_n.contr.Idx) :
    (dot_S256x8_S8x4096_S256x4096_1_0_0_1_n_n.rhsIdx i q 1).val = (i 1).val := by
  unfold DotDims.rhsIdx
  rw [dif_neg (show ¬(1 : Fin S8x4096.rank) ∈ dot_S256x8_S8x4096_S256x4096_1_0_0_1_n_n.rhsBatch by decide), dif_pos (show (1 : Fin S8x4096.rank) ∈ dot_S256x8_S8x4096_S256x4096_1_0_0_1_n_n.rhsNonContracting by decide)]
  rfl

/-- The minimum over thirty-two indices, written out term by term: it is below every term, and a lower bound of all
    thirty-two terms is below their nested minimum. -/
theorem iInf_fin32 (g : Fin 32 → EReal) :
    ⨅ j, g j =
      min (g ⟨0, by decide⟩) (min (g ⟨1, by decide⟩) (min (g ⟨2, by decide⟩) (min (g ⟨3, by decide⟩)
      (min (g ⟨4, by decide⟩) (min (g ⟨5, by decide⟩) (min (g ⟨6, by decide⟩) (min (g ⟨7, by decide⟩)
      (min (g ⟨8, by decide⟩) (min (g ⟨9, by decide⟩) (min (g ⟨10, by decide⟩) (min (g ⟨11, by decide⟩)
      (min (g ⟨12, by decide⟩) (min (g ⟨13, by decide⟩) (min (g ⟨14, by decide⟩) (min (g ⟨15, by decide⟩)
      (min (g ⟨16, by decide⟩) (min (g ⟨17, by decide⟩) (min (g ⟨18, by decide⟩) (min (g ⟨19, by decide⟩)
      (min (g ⟨20, by decide⟩) (min (g ⟨21, by decide⟩) (min (g ⟨22, by decide⟩) (min (g ⟨23, by decide⟩)
      (min (g ⟨24, by decide⟩) (min (g ⟨25, by decide⟩) (min (g ⟨26, by decide⟩) (min (g ⟨27, by decide⟩)
      (min (g ⟨28, by decide⟩) (min (g ⟨29, by decide⟩) (min (g ⟨30, by decide⟩) (g ⟨31, by decide⟩)
      )))))))))))))))))))))))))))))) := by
  refine le_antisymm ?_ (le_iInf ?_)
  · repeat' apply le_min
    all_goals exact iInf_le g _
  · rintro ⟨n, hn⟩
    interval_cases n <;> simp only [min_le_iff, le_refl, true_or, or_true]

/-- The tile's product at (row r of the tile, column c): the sum over the eight augmented coordinates. -/
theorem pay7_apply (v1 : FVec Ideal S8x4096 .f32) (v30 : Vec Ideal S1x256x8 .f32) (r : Fin 256) (c : Fin 4096) :
    (k0_pay7 (F := Ideal) v1 v30 : S256x4096.Idx → EReal) (ix2 r c) = ∑ k : Fin 8, (v30 : S1x256x8.Idx → EReal) (ix3 0 r k) * (v1 : S8x4096.Idx → EReal) (ix2 k c) := by
  unfold k0_pay7
  simp only [matmul]
  -- into the zero accumulator the product is the bare sum over the contraction index, which runs over the eight
  -- augmented coordinates
  rw [Ideal.matmul_constant_zero_apply, ← Equiv.sum_comp (ValueIdx.contrEquiv1 dot_S256x8_S8x4096_S256x4096_1_0_0_1_n_n 8 rfl rfl).symm]
  refine Finset.sum_congr rfl fun k _ => ?_
  have hk := ValueIdx.contrEquiv1_symm_val dot_S256x8_S8x4096_S256x4096_1_0_0_1_n_n 8 rfl rfl k
  -- the left operand is read at (r, k), the right one at (k, c)
  have el : dot_S256x8_S8x4096_S256x4096_1_0_0_1_n_n.lhsIdx (ix2 r c) ((ValueIdx.contrEquiv1 dot_S256x8_S8x4096_S256x4096_1_0_0_1_n_n 8 rfl rfl).symm k) = ix2 r k := funext fun a => Fin.ext (by
    match a with
    | ⟨0, _⟩ => exact lhs_pay7_0 _ _
    | ⟨1, _⟩ => exact (lhs_pay7_1 _ _).trans hk)
  have er : dot_S256x8_S8x4096_S256x4096_1_0_0_1_n_n.rhsIdx (ix2 r c) ((ValueIdx.contrEquiv1 dot_S256x8_S8x4096_S256x4096_1_0_0_1_n_n 8 rfl rfl).symm k) = ix2 k c := funext fun a => Fin.ext (by
    match a with
    | ⟨0, _⟩ => exact (rhs_pay7_0 _ _).trans hk
    | ⟨1, _⟩ => exact rhs_pay7_1 _ _)
  -- and the left operand is the tile with its leading unit axis dropped
  rw [el, er, shapeCast_1ab_ab_apply]

/-- The stored row tile at (row r, lane l): the minimum over the thirty-two lane groups of the product at column 128 j + l. -/
theorem rowTile_apply (v1 : FVec Ideal S8x4096 .f32) (v30 : Vec Ideal S1x256x8 .f32) (r : Fin 256) (l : Fin 128) :
    (rowTile (F := Ideal) v1 v30 : S256x128.Idx → EReal) (ix2 r l)
      = ⨅ j : Fin 32, (k0_pay7 (F := Ideal) v1 v30 : S256x4096.Idx → EReal) (ix2 r ⟨128 * j.val + l.val, by omega⟩) := by
  rw [iInf_fin32]
  unfold rowTile k0_pay22 k0_pay8 k0_pay9 k0_pay10 k0_pay11 k0_pay12 k0_pay13 k0_pay14 k0_pay15 k0_pay16 k0_pay17 k0_pay18
    k0_pay19 k0_pay20 k0_pay21
  -- each leaf is a slice of the product from column 128 j, read at (r, l): the product at (r, 128 j + l)
  simp only [shapeCast_self, minimumf_apply, slice2_axis1_eq, Nat.reduceMul]
  -- the balanced tree and the nested minimum have the same thirty-two leaves
  ac_rfl

/-- The carried value after a trip at (sublane s, column c): the value before, met with the minimum over the thirty-two
    sublane groups of the product at row 8 j + s. -/
theorem colStepOf_apply (v32 : FVec Ideal S256x4096 .f32) (acc : FVec Ideal S8x4096 .f32) (s : Fin 8) (c : Fin 4096) :
    (colStepOf (F := Ideal) v32 acc : S8x4096.Idx → EReal) (ix2 s c)
      = min ((acc : S8x4096.Idx → EReal) (ix2 s c)) (⨅ j : Fin 32, (v32 : S256x4096.Idx → EReal) (ix2 ⟨8 * j.val + s.val, by omega⟩ c)) := by
  rw [iInf_fin32]
  unfold colStepOf k0_pay4 k0_pay3 k0_pay23 k0_pay24 k0_pay25 k0_pay26 k0_pay27 k0_pay28 k0_pay29 k0_pay30 k0_pay31 k0_pay32
    k0_pay33 k0_pay34 k0_pay35 k0_pay36 k0_pay37 k0_pay38 k0_pay39 k0_pay40 k0_pay41 k0_pay42 k0_pay43 k0_pay44 k0_pay45
    k0_pay46 k0_pay47
  -- each leaf is a slice of the product from row 8 j, read at (s, c): the product at (8 j + s, c)
  simp only [minimumf_apply, slice2_axis0_eq, Nat.reduceMul]
  -- the tree, met with the carried value, and the nested minimum have the same leaves
  ac_rfl

end Cert.KernelIdeal.TileValue

end
-- ==== Proof.KI.LoopValue.lean ====
/-
  The loop's two results at the extended reals, entry by entry. The scratch after the sixteen trips holds at
  (row r, lane l) the minimum, over the thirty-two lane groups, of row r's product with column 128 j + l of
  the second block. The carried value after the sixteen trips holds at (sublane s, column c) the minimum,
  over the 512 rows 8 q + s, of that row's product with column c (it starts at +∞, and trip k meets it with
  rows 256 k + 8 j + s).
-/
import proofs.«144322_g85555748536873_cont_9to1_m_146_7_alg».proof.Proof.KI.TileValue

set_option maxRecDepth 16384

noncomputable section

open scoped BigOperators

namespace Cert.KernelIdeal.LoopValue

open Cert.KernelIdeal Cert.KernelIdeal.Gen Cert.KernelIdeal.Hand
open Idealize.ShloMosaic Idealize.ShloMosaic.TcCoe Idealize.ShloMosaic.ValueIdx Idealize.SL.Sem Cert.Chamfer

open Cert.KernelIdeal.TileValue

/-- Row r of tile k is row 256 k + r of the block. -/
theorem tileOf_apply (x0 : Vec Ideal S1x4096x8 .f32) (k : Fin k0_t1_loop.trips) (r : Fin 256) (j : Fin 8)
    (h : 256 * k.val + r.val < 4096) :
    (tileOf (F := Ideal) x0 k : S1x256x8.Idx → EReal) (ix3 0 r j) = (x0 : S1x4096x8.Idx → EReal) (ix3 0 ⟨256 * k.val + r.val, h⟩ j) := by
  have ho := Gen.k0_off1_eq k
  have h0 : k0_off1 k 0 = 0 := congrFun ho 0
  have h1 : k0_off1 k 1 = 256 * k.val := congrFun ho 1
  have h2 : k0_off1 k 2 = 0 := congrFun ho 2
  unfold tileOf
  -- a read through a unit-stride rectangle is the block at offset plus index, axis by axis
  show (x0 : S1x4096x8.Idx → EReal) ((Rect.unit (s := S1x4096x8) (k0_off1 k) S1x256x8.size (k0_off1_inb k)).emb (ix3 0 r j)) = _
  refine congrArg (x0 : S1x4096x8.Idx → EReal) (funext fun a => Fin.ext ?_)
  rw [Rect.emb_apply, Rect.off_unit, Rect.stride_unit]
  match a with
  | ⟨0, _⟩ => show k0_off1 k 0 + 1 * 0 = 0; omega
  | ⟨1, _⟩ => show k0_off1 k 1 + 1 * r.val = 256 * k.val + r.val; omega
  | ⟨2, _⟩ => show k0_off1 k 2 + 1 * j.val = j.val; omega

/-- The product of row `i` of the first block with column `c` of the second, at places given as natural numbers
    (⊤ off the block). -/
def prodAt (x0 : Vec Ideal S1x4096x8 .f32) (v1 : FVec Ideal S8x4096 .f32) (i c : ℕ) : EReal :=
  if h : i < 4096 ∧ c < 4096 then
    ∑ k : Fin 8, (x0 : S1x4096x8.Idx → EReal) (ix3 0 ⟨i, h.1⟩ k) * (v1 : S8x4096.Idx → EReal) (ix2 k ⟨c, h.2⟩)
  else ⊤

/-- Inside the block it is the sum over the eight augmented coordinates. -/
theorem prodAt_eq (x0 : Vec Ideal S1x4096x8 .f32) (v1 : FVec Ideal S8x4096 .f32) (i c : ℕ) (hi : i < 4096) (hc : c < 4096) :
    prodAt x0 v1 i c
      = ∑ k : Fin 8, (x0 : S1x4096x8.Idx → EReal) (ix3 0 ⟨i, hi⟩ k) * (v1 : S8x4096.Idx → EReal) (ix2 k ⟨c, hc⟩) :=
  dif_pos ⟨hi, hc⟩

/-- The loop runs sixteen trips. -/
theorem trips16 : k0_t1_loop.trips = 16 := by decide

/-- Trip k's product at (row r of the tile, column c) is the block's product at row 256 k + r. -/
theorem tile_prod (x0 : Vec Ideal S1x4096x8 .f32) (v1 : FVec Ideal S8x4096 .f32) (k : Fin k0_t1_loop.trips)
    (r : Fin 256) (c : Fin 4096) :
    (k0_pay7 (F := Ideal) v1 (tileOf (F := Ideal) x0 k) : S256x4096.Idx → EReal) (ix2 r c)
      = prodAt x0 v1 (256 * k.val + r.val) c.val := by
  have hk : k.val < 16 := trips16 ▸ k.isLt
  have h : 256 * k.val + r.val < 4096 := by have := r.isLt; omega
  rw [pay7_apply, prodAt_eq x0 v1 _ _ h c.isLt]
  refine Finset.sum_congr rfl fun k' _ => ?_
  rw [tileOf_apply x0 k r k' h]

/-- The scratch's closed form at an index: the minimum over the thirty-two lane groups of the row's product. -/
def rowsG (x0 : Vec Ideal S1x4096x8 .f32) (v1 : FVec Ideal S8x4096 .f32) (y : S4096x128.Idx) : EReal :=
  ⨅ j : Fin 32, prodAt x0 v1 (y 0).val (128 * j.val + (y 1).val)

/-- Every stored row tile is the tile of the closed form that its rectangle names: tile k at (r, l) sits at
    row 256 k + r, lane l. -/
theorem rowPieces_agree (x0 : Vec Ideal S1x4096x8 .f32) (v1 : FVec Ideal S8x4096 .f32) :
    ∀ n : ℕ, ∀ p ∈ rowPieces (F := Ideal) x0 v1 n, ∀ x : p.1.shape.Idx, p.2 x = rowsG x0 v1 (p.1.emb x) := by
  intro n
  induction n with
  | zero => intro p hp; simp [rowPieces] at hp
  | succ n ih =>
    intro p hp
    rw [rowPieces] at hp
    by_cases h : n < k0_t1_loop.trips
    · rw [dif_pos h] at hp
      rcases List.mem_append.mp hp with hp | hp
      · obtain rfl := List.mem_singleton.mp hp
        have ho := Gen.k0_off2_eq ⟨n, h⟩
        have h0 : k0_off2 ⟨n, h⟩ 0 = 256 * n := congrFun ho 0
        have h1 : k0_off2 ⟨n, h⟩ 1 = 0 := congrFun ho 1
        show ∀ x : S256x128.Idx, (rowTile (F := Ideal) v1 (tileOf (F := Ideal) x0 ⟨n, h⟩) : S256x128.Idx → EReal) x
          = rowsG x0 v1 ((rowRect ⟨n, h⟩).emb x)
        intro x
        obtain ⟨a, b, rfl⟩ : ∃ (a : Fin 256) (b : Fin 128), x = ix2 a b := ⟨x 0, x 1, eq_ix2 x⟩
        rw [rowTile_apply]
        simp only [tile_prod]
        unfold rowsG
        refine iInf_congr fun j => ?_
        refine congrArg₂ (prodAt x0 v1) ?_ ?_
        · show 256 * n + a.val = k0_off2 ⟨n, h⟩ 0 + 1 * a.val
          omega
        · show 128 * j.val + b.val = 128 * j.val + (k0_off2 ⟨n, h⟩ 1 + 1 * b.val)
          omega
      · exact ih p hp
    · rw [dif_neg h] at hp
      exact ih p hp

/-- The scratch after the loop at (row r, lane l). -/
theorem rowsAll_apply (x0 : Vec Ideal S1x4096x8 .f32) (v1 : FVec Ideal S8x4096 .f32) (r : Fin 4096) (l : Fin 128) :
    (rowsAll (F := Ideal) x0 v1 : S4096x128.Idx → EReal) (ix2 r l)
      = ⨅ j : Fin 32, ∑ k : Fin 8, (x0 : S1x4096x8.Idx → EReal) (ix3 0 r k) * (v1 : S8x4096.Idx → EReal) (ix2 k ⟨128 * j.val + l.val, by omega⟩) := by
  unfold rowsAll
  -- the sixteen stored tiles agree with one closed form and cover the scratch
  rw [View.canon_apply_of_pieces (rowsG x0 v1) _ (rowPieces_agree x0 v1 16) (ix2 r l) (rowPieces_cover x0 v1 (ix2 r l))]
  unfold rowsG
  refine iInf_congr fun j => ?_
  have hj := j.isLt
  have hl := l.isLt
  exact prodAt_eq x0 v1 r.val (128 * j.val + l.val) r.isLt (by omega)

/-- The carried value starts at +∞ everywhere. -/
theorem pay2_apply (j : S8x4096.Idx) : (k0_pay2 (F := Ideal) : S8x4096.Idx → EReal) j = ⊤ := by
  show Ideal.ofBits .f32 0x7F800000#32 = ⊤
  simp [Ideal.ofBits, Ideal.ieee]

/-- The carried value after n trips: the minimum over the rows 8 q + s met so far, those with q below 32 n
    (trip k meets rows 256 k + 8 j + s = 8 (32 k + j) + s, j below 32). -/
theorem colAcc_gen (x0 : Vec Ideal S1x4096x8 .f32) (v1 : FVec Ideal S8x4096 .f32) (s : Fin 8) (c : Fin 4096) :
    ∀ n : ℕ, n ≤ 16 → (colAcc (F := Ideal) x0 v1 n : S8x4096.Idx → EReal) (ix2 s c)
      = ⨅ q : Fin 512, if q.val < 32 * n then prodAt x0 v1 (8 * q.val + s.val) c.val else ⊤ := by
  intro n
  induction n with
  | zero =>
    intro _
    rw [colAcc, pay2_apply]
    simp
  | succ n ih =>
    intro hn
    have h : n < k0_t1_loop.trips := by rw [trips16]; omega
    have hs := s.isLt
    rw [colAcc, dif_pos h, colStep, colStepOf_apply, ih (by omega)]
    simp only [tile_prod]
    apply le_antisymm
    · -- below each term of the longer minimum: an old row by the left side, a new row 8 q + s by the right side at j = q - 32 n
      refine le_iInf fun q => ?_
      have hq := q.isLt
      by_cases h1 : q.val < 32 * (n + 1)
      · rw [if_pos h1]
        by_cases h2 : q.val < 32 * n
        · exact (min_le_left _ _).trans ((iInf_le _ q).trans (by rw [if_pos h2]))
        · refine (min_le_right _ _).trans ((iInf_le _ (⟨q.val - 32 * n, by omega⟩ : Fin 32)).trans ?_)
          refine le_of_eq (congrArg (fun i => prodAt x0 v1 i c.val) ?_)
          show 256 * n + (8 * (q.val - 32 * n) + s.val) = 8 * q.val + s.val
          omega
      · rw [if_neg h1]; exact le_top
    · -- the longer minimum is below both sides: it has every old row, and the trip's row j at q = 32 n + j
      refine le_min (le_iInf fun q => ?_) (le_iInf fun j => ?_)
      · by_cases h2 : q.val < 32 * n
        · rw [if_pos h2]
          exact (iInf_le _ q).trans (by rw [if_pos (by omega)])
        · rw [if_neg h2]; exact le_top
      · have hj := j.isLt
        refine (iInf_le _ (⟨32 * n + j.val, by omega⟩ : Fin 512)).trans ?_
        rw [if_pos (show 32 * n + j.val < 32 * (n + 1) by omega)]
        refine le_of_eq (congrArg (fun i => prodAt x0 v1 i c.val) ?_)
        show 8 * (32 * n + j.val) + s.val = 256 * n + (8 * j.val + s.val)
        omega

/-- The carried value after the loop at (sublane s, column c). -/
theorem colAcc_apply (x0 : Vec Ideal S1x4096x8 .f32) (v1 : FVec Ideal S8x4096 .f32) (s : Fin 8) (c : Fin 4096) :
    (colAcc (F := Ideal) x0 v1 16 : S8x4096.Idx → EReal) (ix2 s c)
      = ⨅ q : Fin 512, ∑ k : Fin 8, (x0 : S1x4096x8.Idx → EReal) (ix3 0 ⟨8 * q.val + s.val, by omega⟩ k) * (v1 : S8x4096.Idx → EReal) (ix2 k c) := by
  rw [colAcc_gen x0 v1 s c 16 le_rfl]
  refine iInf_congr fun q => ?_
  have hq := q.isLt
  have hs := s.isLt
  rw [if_pos (by omega), prodAt_eq x0 v1 _ _ (by omega) c.isLt]

end Cert.KernelIdeal.LoopValue

end
-- ==== Proof.KI.BodyValue.lean ====
/-
  What the body leaves in its two output blocks, at the extended reals: with the product of row r of the
  first input block and column c of the second written P r c, every lane of the first output block holds the
  sum over the 4096 rows of max(min over the 4096 columns of P r c, 0), and every lane of the second the sum
  over the columns of max(min over the rows of P r c, 0). The minimum over 128 lanes of the minima over 32
  lane groups is the minimum over the 4096 columns; the minimum over 8 sublanes of the minima over 512 row
  groups is the minimum over the 4096 rows.
-/
import proofs.«144322_g85555748536873_cont_9to1_m_146_7_alg».proof.Proof.KI.Frame
import proofs.«144322_g85555748536873_cont_9to1_m_146_7_alg».proof.Proof.KI.LoopValue
import Idealize.ShloMosaic.PureOps.Reduce
import Idealize.ShloMosaic.PureOps.Ideal.Laws
import Idealize.ShloMosaic.Lib.ValueIdx
import Idealize.ShloMosaic.Lib.ValueLayout

set_option maxRecDepth 16384

noncomputable section

open scoped BigOperators

namespace Cert.KernelIdeal.BodyValue

open Cert.KernelIdeal Cert.KernelIdeal.Gen Cert.KernelIdeal.Hand
open Idealize.ShloMosaic Idealize.ShloMosaic.TcCoe Idealize.ShloMosaic.ValueIdx Idealize.SL.Sem Cert.Chamfer

open Cert.KernelIdeal.TileValue Cert.KernelIdeal.LoopValue

/-- The product of row r of the first input block and column c of the second. -/
def blockPair (x0 : Vec Ideal S1x4096x8 .f32) (x1 : Vec Ideal S1x8x4096 .f32) (r c : Fin 4096) : EReal :=
  ∑ k : Fin 8, (x0 : S1x4096x8.Idx → EReal) (ix3 0 r k) * (x1 : S1x8x4096.Idx → EReal) (ix3 0 k c)

/-! ## Small facts -/

/-- A fold of the minimum from the top element over a finite type is the infimum. -/
theorem fold_min_top {ι : Type} [Fintype ι] (f : ι → EReal) :
    (Finset.univ : Finset ι).fold min ⊤ f = ⨅ i, f i := by
  rw [← Finset.inf_univ_eq_iInf]
  rfl

/-- The word 0x7F800000 is +∞. -/
theorem ofBits_inf_f32 : Ideal.ofBits .f32 0x7F800000#32 = (⊤ : EReal) := by
  simp [Ideal.ofBits, Ideal.ieee]

/-- The minimum over 128 lanes of the minima over 32 lane groups is the minimum over the 4096 columns. -/
theorem iInf_lanes (f : Fin 4096 → EReal) :
    (⨅ l : Fin 128, ⨅ j : Fin 32, f ⟨128 * j.val + l.val, by omega⟩) = ⨅ c : Fin 4096, f c := by
  apply le_antisymm
  · refine le_iInf fun c => ?_
    refine iInf_le_of_le ⟨c.val % 128, Nat.mod_lt _ (by norm_num)⟩ (iInf_le_of_le ⟨c.val / 128, by omega⟩ (le_of_eq (congrArg f (Fin.ext ?_))))
    show 128 * (c.val / 128) + c.val % 128 = c.val
    omega
  · exact le_iInf fun l => le_iInf fun j => iInf_le _ _

/-- The minimum over 8 sublanes of the minima over 512 row groups is the minimum over the 4096 rows. -/
theorem iInf_sublanes (f : Fin 4096 → EReal) :
    (⨅ s : Fin 8, ⨅ q : Fin 512, f ⟨8 * q.val + s.val, by omega⟩) = ⨅ r : Fin 4096, f r := by
  apply le_antisymm
  · refine le_iInf fun r => ?_
    refine iInf_le_of_le ⟨r.val % 8, Nat.mod_lt _ (by norm_num)⟩ (iInf_le_of_le ⟨r.val / 8, by omega⟩ (le_of_eq (congrArg f (Fin.ext ?_))))
    show 8 * (r.val / 8) + r.val % 8 = r.val
    omega
  · exact le_iInf fun s => le_iInf fun q => iInf_le _ _

/-! ## The reductions at an index -/

/-- Row r with lane l inserted on the reduced axis is (r, l). -/
theorem lift1_eq (r : Fin 4096) (l : Fin 128) : reduces_S4096x128_S4096.lift (ix1 r) l = ix2 r l := by
  funext c; match c with | ⟨0, _⟩ => rfl | ⟨1, _⟩ => rfl

/-- Column c with sublane s inserted on the reduced axis is (s, c). -/
theorem lift0_eq (c : Fin 4096) (s : Fin 8) : reduces_S8x4096_S4096.lift (ix1 c) s = ix2 s c := by
  funext a; match a with | ⟨0, _⟩ => rfl | ⟨1, _⟩ => rfl

/-- The unit row with coordinate k inserted on the reduced axis is (u, k). -/
theorem lift2_eq (u : Fin 1) (k : Fin 4096) : reduces_S1x4096_S1.lift (ix1 u) k = ix2 u k := by
  funext c; match c with | ⟨0, _⟩ => rfl | ⟨1, _⟩ => rfl

/-- The position (0, 0) of the one-by-one array. -/
theorem pos00_eq : (fun a => ⟨(![0, 0] : Fin 2 → Nat) a, inpos_S1x1_p0_0 a⟩ : S1x1.Idx) = ix2 (0 : Fin 1) (0 : Fin 1) := by
  funext a; match a with | ⟨0, _⟩ => rfl | ⟨1, _⟩ => rfl

/-- The minimum over the lanes, from +∞, at row r: the infimum over the 128 lanes. -/
theorem minRed1_apply (v5 : Vec Ideal S4096x128 .f32) (hφ : FKind.Formats .f32)
    (hacc : (0x7F800000#32 : BitVec 32) = FKind.minimumf.neutral .f32 hφ) (r : Fin 4096) :
    (multiReduction (F := Ideal) .minimumf [1] S4096 v5 0x7F800000#32 reduces_S4096x128_S4096 hφ hacc : S4096.Idx → EReal) (ix1 r)
      = ⨅ l : Fin 128, (v5 : S4096x128.Idx → EReal) (ix2 r l) := by
  rw [multiReduction_minimumf_eq_fold]
  refine (reduces_S4096x128_S4096.fold_filter_drop_single _ _ v5 (ix1 r)).trans ?_
  refine (congrArg (fun e => Finset.fold min e (v5 ∘ reduces_S4096x128_S4096.lift (ix1 r)) (Finset.univ : Finset (Fin 128))) ofBits_inf_f32).trans ?_
  refine (fold_min_top _).trans ?_
  exact iInf_congr fun l => congrArg v5 (lift1_eq r l)

/-- The minimum over the sublanes, from +∞, at column c: the infimum over the 8 sublanes. -/
theorem minRed0_apply (v4 : FVec Ideal S8x4096 .f32) (hφ : FKind.Formats .f32)
    (hacc : (0x7F800000#32 : BitVec 32) = FKind.minimumf.neutral .f32 hφ) (c : Fin 4096) :
    (multiReduction (F := Ideal) .minimumf [0] S4096 v4 0x7F800000#32 reduces_S8x4096_S4096 hφ hacc : S4096.Idx → EReal) (ix1 c)
      = ⨅ s : Fin 8, (v4 : S8x4096.Idx → EReal) (ix2 s c) := by
  rw [multiReduction_minimumf_eq_fold]
  refine (reduces_S8x4096_S4096.fold_filter_drop_single _ _ v4 (ix1 c)).trans ?_
  refine (congrArg (fun e => Finset.fold min e (v4 ∘ reduces_S8x4096_S4096.lift (ix1 c)) (Finset.univ : Finset (Fin 8))) ofBits_inf_f32).trans ?_
  refine (fold_min_top _).trans ?_
  exact iInf_congr fun s => congrArg v4 (lift0_eq c s)

/-- The sum over the 4096 entries of a one-row array, from zero. -/
theorem sumRed_apply (v9 : FVec Ideal S1x4096 .f32) (hφ : FKind.Formats .f32)
    (hacc : (0x00000000#32 : BitVec 32) = FKind.add.neutral .f32 hφ) (u : Fin 1) :
    (multiReduction (F := Ideal) .add [1] S1 v9 0x00000000#32 reduces_S1x4096_S1 hφ hacc : S1.Idx → EReal) (ix1 u)
      = ∑ k : Fin 4096, (v9 : S1x4096.Idx → EReal) (ix2 u k) := by
  refine (Ideal.multiReduction_add_single v9 0x00000000#32 reduces_S1x4096_S1 hφ hacc (ix1 u)).trans ?_
  exact Finset.sum_congr rfl fun k _ => congrArg v9 (lift2_eq u k)

/-! ## The two output values from the loop's results -/

/-- The tail shared by the two output blocks: the 4096 minima clamped below at zero and summed, the sum in every lane. -/
theorem tail_apply (v6 : FVec Ideal S4096 .f32) (hφ : FKind.Formats .f32)
    (hacc : (0x00000000#32 : BitVec 32) = FKind.add.neutral .f32 hφ) (y : S1x1x128.Idx) :
    (shapeCast S1x1x128 (broadcast S1x128 (extractAt ![0, 0] (shapeCast S1x1
      (multiReduction (F := Ideal) .add [1] S1 (shapeCast S1x4096 (maximumf v6 (broadcast S4096 (Scalar.ofBits (F := Ideal) .f32 0x00000000#32))) shapeCasts_S4096_S1x4096)
        0x00000000#32 reduces_S1x4096_S1 hφ hacc) shapeCasts_S1_S1x1) inpos_S1x1_p0_0)) shapeCasts_S1x128_S1x1x128 : S1x1x128.Idx → EReal) y
      = ∑ r : Fin 4096, max ((v6 : S4096.Idx → EReal) (ix1 r)) 0 := by
  rw [eq_ix3 y]
  refine (shapeCast_ab_1ab_apply _ _ _ _ _).trans ?_
  refine (broadcast_apply _ _).trans ?_
  unfold extractAt
  refine (congrArg _ pos00_eq).trans ?_
  refine (shapeCast_a_1a_apply _ _ _ _).trans ?_
  refine (sumRed_apply _ hφ hacc 0).trans ?_
  refine Finset.sum_congr rfl fun r _ => ?_
  refine (shapeCast_a_1a_apply _ _ _ _).trans ?_
  refine (maximumf_apply _ _ _).trans ?_
  refine congrArg (max _) ?_
  exact Ideal.ofBits_zero_f32

/-- The first output value from the scratch: the sum over the rows of the clamped minimum over the lanes. -/
theorem pay5_apply (v5 : Vec Ideal S4096x128 .f32) (y : S1x1x128.Idx) :
    (k0_pay5 (F := Ideal) v5 : S1x1x128.Idx → EReal) y = ∑ r : Fin 4096, max (⨅ l : Fin 128, (v5 : S4096x128.Idx → EReal) (ix2 r l)) 0 := by
  unfold k0_pay5
  dsimp only
  refine (tail_apply _ _ _ y).trans ?_
  refine Finset.sum_congr rfl fun r _ => ?_
  exact congrArg (max · 0) (minRed1_apply v5 _ _ r)

/-- The second output value from the carried value: the sum over the columns of the clamped minimum over the sublanes. -/
theorem pay6_apply (v4 : FVec Ideal S8x4096 .f32) (y : S1x1x128.Idx) :
    (k0_pay6 (F := Ideal) v4 : S1x1x128.Idx → EReal) y = ∑ c : Fin 4096, max (⨅ s : Fin 8, (v4 : S8x4096.Idx → EReal) (ix2 s c)) 0 := by
  unfold k0_pay6
  dsimp only
  refine (tail_apply _ _ _ y).trans ?_
  refine Finset.sum_congr rfl fun c _ => ?_
  exact congrArg (max · 0) (minRed0_apply v4 _ _ c)

/-- The second block as a matrix at (k, c) is the block at (0, k, c). -/
theorem pay1_apply (x1 : Vec Ideal S1x8x4096 .f32) (k : Fin 8) (c : Fin 4096) :
    (k0_pay1 (F := Ideal) x1 : S8x4096.Idx → EReal) (ix2 k c) = (x1 : S1x8x4096.Idx → EReal) (ix3 0 k c) := by
  unfold k0_pay1
  exact shapeCast_1ab_ab_apply _ _ _ _

/-- Every entry of the first output block. -/
theorem out2_apply (x0 : Vec Ideal S1x4096x8 .f32) (x1 : Vec Ideal S1x8x4096 .f32) (y : S1x1x128.Idx) :
    (out2 (F := Ideal) x0 x1 : S1x1x128.Idx → EReal) y = ∑ r : Fin 4096, max (⨅ c : Fin 4096, blockPair x0 x1 r c) 0 := by
  unfold out2
  refine (pay5_apply _ y).trans ?_
  refine Finset.sum_congr rfl fun r _ => congrArg (max · 0) ?_
  refine (iInf_congr fun l => rowsAll_apply x0 (k0_pay1 x1) r l).trans ?_
  refine (iInf_congr fun l => iInf_congr fun j => Finset.sum_congr rfl fun k _ => congrArg (_ * ·) (pay1_apply x1 k _)).trans ?_
  exact iInf_lanes (fun c => blockPair x0 x1 r c)

/-- Every entry of the second output block. -/
theorem out3_apply (x0 : Vec Ideal S1x4096x8 .f32) (x1 : Vec Ideal S1x8x4096 .f32) (y : S1x1x128.Idx) :
    (out3 (F := Ideal) x0 x1 : S1x1x128.Idx → EReal) y = ∑ c : Fin 4096, max (⨅ r : Fin 4096, blockPair x0 x1 r c) 0 := by
  unfold out3
  refine (pay6_apply _ y).trans ?_
  refine Finset.sum_congr rfl fun c _ => congrArg (max · 0) ?_
  refine (iInf_congr fun s => colAcc_apply x0 (k0_pay1 x1) s c).trans ?_
  refine (iInf_congr fun s => iInf_congr fun q => Finset.sum_congr rfl fun k _ => congrArg (_ * ·) (pay1_apply x1 k c)).trans ?_
  exact iInf_sublanes (fun r => blockPair x0 x1 r c)

end Cert.KernelIdeal.BodyValue

end
-- ==== Proof.KI.HostPre.lean ====
/-
  What the region finds in its two input arrays, at the extended reals: the host operations before the
  region lay each point of the first cloud out as the row (x, y, z, |p|², |p|² - |p|², 1, 1, 0) and each
  point of the second, transposed, as the column (-2x, -2y, -2z, 1, 1, |q|², |q|² - |q|², 0) — a change of
  float format being the identity here, the "high part" of a squared norm is the norm itself.
-/
import proofs.«144322_g85555748536873_cont_9to1_m_146_7_alg».proof.Proof.KI.Kit
import proofs.«144322_g85555748536873_cont_9to1_m_146_7_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.IdealHost

set_option maxRecDepth 16384

noncomputable section

open scoped BigOperators

namespace Cert.KernelIdeal.HostPre

open Cert.KernelIdeal Cert.KernelIdeal.Gen Cert.KernelIdeal.Hand
open Idealize.ShloMosaic Idealize.ShloMosaic.TcCoe Idealize.ShloMosaic.ValueIdx Idealize.SL.Sem Cert.Chamfer

/-! ## The layout operations and the words, read at an entry -/

/-- Three columns and then five single columns laid side by side along the last axis, read at an entry: the piece whose
    span holds the column, at the column less the widths before it. -/
theorem cat6_apply (h : Shape.Concatenates [S8x4096x3, S8x4096x1, S8x4096x1, S8x4096x1, S8x4096x1, S8x4096x1] S8x4096x8 2)
    (x0 : S8x4096x3.Idx → EReal) (p1 p2 p3 p4 p5 : S8x4096x1.Idx → EReal) (b : Fin 8) (n : Fin 4096) (k : Fin 8) :
    concatenate S8x4096x8 2 [⟨S8x4096x3, x0⟩, ⟨S8x4096x1, p1⟩, ⟨S8x4096x1, p2⟩, ⟨S8x4096x1, p3⟩, ⟨S8x4096x1, p4⟩, ⟨S8x4096x1, p5⟩] h (ix3 b n k)
      = ![x0 (ix3 b n 0), x0 (ix3 b n 1), x0 (ix3 b n 2), p1 (ix3 b n 0), p2 (ix3 b n 0), p3 (ix3 b n 0), p4 (ix3 b n 0), p5 (ix3 b n 0)] k := by
  have piece := concatenate_apply_piece (α := EReal) (t := S8x4096x8) 2
    [⟨S8x4096x3, x0⟩, ⟨S8x4096x1, p1⟩, ⟨S8x4096x1, p2⟩, ⟨S8x4096x1, p3⟩, ⟨S8x4096x1, p4⟩, ⟨S8x4096x1, p5⟩] h
  fin_cases k
  · exact piece _ 0 (by simp) S8x4096x3 x0 rfl rfl 0 rfl (ix3 b n 0) (fun a ha => by fin_cases a <;> first | rfl | exact absurd rfl ha) rfl
  · exact piece _ 0 (by simp) S8x4096x3 x0 rfl rfl 0 rfl (ix3 b n 1) (fun a ha => by fin_cases a <;> first | rfl | exact absurd rfl ha) rfl
  · exact piece _ 0 (by simp) S8x4096x3 x0 rfl rfl 0 rfl (ix3 b n 2) (fun a ha => by fin_cases a <;> first | rfl | exact absurd rfl ha) rfl
  · exact piece _ 1 (by simp) S8x4096x1 p1 rfl rfl 3 rfl (ix3 b n 0) (fun a ha => by fin_cases a <;> first | rfl | exact absurd rfl ha) rfl
  · exact piece _ 2 (by simp) S8x4096x1 p2 rfl rfl 4 rfl (ix3 b n 0) (fun a ha => by fin_cases a <;> first | rfl | exact absurd rfl ha) rfl
  · exact piece _ 3 (by simp) S8x4096x1 p3 rfl rfl 5 rfl (ix3 b n 0) (fun a ha => by fin_cases a <;> first | rfl | exact absurd rfl ha) rfl
  · exact piece _ 4 (by simp) S8x4096x1 p4 rfl rfl 6 rfl (ix3 b n 0) (fun a ha => by fin_cases a <;> first | rfl | exact absurd rfl ha) rfl
  · exact piece _ 5 (by simp) S8x4096x1 p5 rfl rfl 7 rfl (ix3 b n 0) (fun a ha => by fin_cases a <;> first | rfl | exact absurd rfl ha) rfl

/-- The word for -2.0 is the extended real -2. -/
theorem neg_two_word : Ideal.ofBits .f32 0xC0000000#32 = -2 := by
  have h : Ideal.ofBits .f32 0xC0000000#32 = ((-2 : ℝ) : EReal) := by
    simp [Ideal.ofBits, Ideal.ieee, -EReal.coe_mul, -EReal.coe_neg]; norm_num
  rw [h, EReal.coe_neg]
  rfl

/-- The sum of a cloud's squares over the coordinate axis, from the zero word, set in a column: the squared norm. -/
theorem sqcol_apply (hr : S8x4096x3.ReducesTo [2] S8x4096) (h0 : 0 < S_.numel)
    (hb : S8x4096.BroadcastsInDim S8x4096x1 (![0, 1] : Fin 2 → Fin S8x4096x1.rank))
    (x : FVec Ideal S8x4096x3 .f32) (b : Fin 8) (n : Fin 4096) :
    broadcastInDim S8x4096x1 ![0, 1] hb (Host.reduceAdd (mulf x x) (constant (F := Ideal) S_ .f32 0x00000000#32) hr h0) (ix3 b n 0)
      = Chamfer.sq (cloud x) b n := by
  rw [broadcastInDim_apply _ hb _ _ (ix2 b n) (fun a => by fin_cases a <;> rfl)]
  rw [hostReduceAdd_apply, Ideal.hostReduceAdd_single hr (by decide), constant_apply, Ideal.ofBits_zero_f32, zero_add]
  unfold Chamfer.sq cloud
  refine Finset.sum_congr rfl fun k _ => ?_
  rw [mulf_apply]
  have e : Shape.Reduces.lift (by decide : S8x4096x3.Reduces [2] S8x4096) (ix2 b n) k = ix3 b n k := by
    funext a; apply Fin.ext; match a with | ⟨0, _⟩ => rfl | ⟨1, _⟩ => rfl | ⟨2, _⟩ => rfl
  rw [e]; rfl

/-- A scalar word spread over an array reads the word's value at every index. -/
theorem splat_apply {T : Shape} (h : S_.BroadcastsInDim T (![] : Fin 0 → Fin T.rank)) (w : BitVec 32) (j : T.Idx) :
    broadcastInDim T ![] h (constant (F := Ideal) S_ .f32 w) j = Ideal.ofBits .f32 w := by
  rw [broadcastInDim_scalar_apply, constant_apply]

/-- The array with its last two axes exchanged, read at an entry. -/
theorem swap_apply (h : S8x4096x8.Transposes [0, 2, 1] S8x8x4096) (x : S8x4096x8.Idx → EReal) (b : Fin 8) (k : Fin 8) (mm : Fin 4096) :
    transpose S8x8x4096 [0, 2, 1] x h (ix3 b k mm) = x (ix3 b mm k) :=
  transpose_apply _ x h _ _ (fun a => by fin_cases a <;> rfl)

/-- Two rows of eight entries agree when their entries do. -/
theorem vec8_ext {α : Type} {a0 a1 a2 a3 a4 a5 a6 a7 b0 b1 b2 b3 b4 b5 b6 b7 : α}
    (h0 : a0 = b0) (h1 : a1 = b1) (h2 : a2 = b2) (h3 : a3 = b3) (h4 : a4 = b4) (h5 : a5 = b5) (h6 : a6 = b6) (h7 : a7 = b7) :
    (![a0, a1, a2, a3, a4, a5, a6, a7] : Fin 8 → α) = ![b0, b1, b2, b3, b4, b5, b6, b7] := by
  rw [h0, h1, h2, h3, h4, h5, h6, h7]

open Idealize.ShloMosaic.StableHlo in
/-- Each operation's result at a reference: its function's value at its own result reference, what was there at any other. -/
local macro "results_more" : tactic =>
  `(tactic| (repeat (first
               | rw [nullary_result] | rw [unary_result] | rw [binary_result] | rw [nary_result]
               | (rw [nullary_result_ne]; rotate_left; decide)
               | (rw [unary_result_ne]; rotate_left; decide)
               | (rw [binary_result_ne]; rotate_left; decide)
               | (rw [nary_result_ne]; rotate_left; decide))))

/-! ## The two arrays -/

variable (m : (ℓ : Loc nD τ sig) → Buf (Elt Ideal) ℓ)

/-- The first input array of the region, entry by entry: row `n` of batch `b` is the first cloud's augmented row. -/
theorem V_v16_apply (c : Dev nD) (b : Fin 8) (n : Fin 4096) (k : Fin 8) :
    (V (F := Ideal) m c main_v16 : S8x4096x8.Idx → EReal) (ix3 b n k)
      = augL (cloud (m ((c.tc : Thread nD τ).loc main_arg0))) b n k := by
  dsimp only [V, V0]
  simp only [hostOps0, List.flatten_cons, List.flatten_nil, List.append_nil]
  after_results
  refine (cat6_apply _ _ _ _ _ _ _ b n k).trans (congrFun (vec8_ext ?_ ?_ ?_ ?_ ?_ ?_ ?_ ?_) k)
  all_goals dsimp only [Matrix.cons_val]
  all_goals results_more
  · rfl
  · rfl
  · rfl
  · exact sqcol_apply reducesTo_S8x4096x3_S8x4096_d2 h_S_ bcast_S8x4096_S8x4096x1_0_1 _ b n
  · exact (subf_apply _ _ _).trans (congrArg₂ (· - ·) (sqcol_apply reducesTo_S8x4096x3_S8x4096_d2 h_S_ bcast_S8x4096_S8x4096x1_0_1 _ b n) (sqcol_apply reducesTo_S8x4096x3_S8x4096_d2 h_S_ bcast_S8x4096_S8x4096x1_0_1 _ b n))
  · exact (splat_apply _ _ _).trans Ideal.ofBits_one_f32
  · exact (splat_apply _ _ _).trans Ideal.ofBits_one_f32
  · exact (splat_apply _ _ _).trans Ideal.ofBits_zero_f32

/-- The second input array of the region, entry by entry: column `mm` of batch `b` is the second cloud's augmented row. -/
theorem V_v20_apply (c : Dev nD) (b : Fin 8) (k : Fin 8) (mm : Fin 4096) :
    (V (F := Ideal) m c main_v20 : S8x8x4096.Idx → EReal) (ix3 b k mm)
      = augR (cloud (m ((c.tc : Thread nD τ).loc main_arg1))) b mm k := by
  dsimp only [V, V0]
  simp only [hostOps0, List.flatten_cons, List.flatten_nil, List.append_nil]
  after_results
  refine (swap_apply _ _ b k mm).trans ?_
  refine (cat6_apply _ _ _ _ _ _ _ b mm k).trans (congrFun (vec8_ext ?_ ?_ ?_ ?_ ?_ ?_ ?_ ?_) k)
  all_goals dsimp only [Matrix.cons_val]
  all_goals results_more
  · exact (mulf_apply _ _ _).trans (congrArg (· * _) ((splat_apply _ _ _).trans neg_two_word))
  · exact (mulf_apply _ _ _).trans (congrArg (· * _) ((splat_apply _ _ _).trans neg_two_word))
  · exact (mulf_apply _ _ _).trans (congrArg (· * _) ((splat_apply _ _ _).trans neg_two_word))
  · exact (splat_apply _ _ _).trans Ideal.ofBits_one_f32
  · exact (splat_apply _ _ _).trans Ideal.ofBits_one_f32
  · exact sqcol_apply reducesTo_S8x4096x3_S8x4096_d2 h_S_ bcast_S8x4096_S8x4096x1_0_1 _ b mm
  · exact (subf_apply _ _ _).trans (congrArg₂ (· - ·) (sqcol_apply reducesTo_S8x4096x3_S8x4096_d2 h_S_ bcast_S8x4096_S8x4096x1_0_1 _ b mm) (sqcol_apply reducesTo_S8x4096x3_S8x4096_d2 h_S_ bcast_S8x4096_S8x4096x1_0_1 _ b mm))
  · exact (splat_apply _ _ _).trans Ideal.ofBits_zero_f32

end Cert.KernelIdeal.HostPre

end
-- ==== Proof.KI.KernelValue.lean ====
/-
  The idealized kernel's run, with its result named. At batch `b` the two input blocks are the augmented
  rows of the two clouds, so the body's row-by-column product is the specification's eight-term product;
  the first output array holds at batch `b` the sum over the first cloud's points of the clamped minimum
  over the second cloud, the second array the sum over the second cloud's points of the clamped minimum
  over the first; and the later host operations add the two means. So the program's one result is the
  specification's total of the kernel's two sums.
-/
import proofs.«144322_g85555748536873_cont_9to1_m_146_7_alg».proof.Proof.KI.Arrays
import proofs.«144322_g85555748536873_cont_9to1_m_146_7_alg».proof.Proof.KI.Tail
import proofs.«144322_g85555748536873_cont_9to1_m_146_7_alg».proof.Proof.KI.BodyValue
import proofs.«144322_g85555748536873_cont_9to1_m_146_7_alg».proof.Proof.KI.HostPre
import proofs.«144322_g85555748536873_cont_9to1_m_146_7_alg».proof.Proof.Spec

set_option maxRecDepth 16384

noncomputable section

open scoped BigOperators

namespace Cert.KernelIdeal.KernelValue

open Cert.KernelIdeal Cert.KernelIdeal.Gen Cert.KernelIdeal.Hand
open Idealize.ShloMosaic Idealize.ShloMosaic.TcCoe Idealize.ShloMosaic.ValueIdx Idealize.SL.Sem Cert.Chamfer

open Cert.KernelIdeal.Arrays Cert.KernelIdeal.Tail Cert.KernelIdeal.BodyValue Cert.KernelIdeal.HostPre

variable (m : (ℓ : Loc nD τ sig) → Buf (Elt Ideal) ℓ) (ρ : Dev nD → PrngReg)

/-- The first cloud, read off core `c`'s launch memory. -/
abbrev X (c : Dev nD) : Cloud := cloud (m ((c.tc : Thread nD τ).loc main_arg0))
/-- The second cloud. -/
abbrev Y (c : Dev nD) : Cloud := cloud (m ((c.tc : Thread nD τ).loc main_arg1))

/-- At point `b` the product of a row of the first block and a column of the second is the specification's
    eight-term product of the two points' augmented rows. -/
theorem blockPair_eq (c : Dev nD) (b : Fin 8) (hb : b.val < cfg0.N) (r cc : Fin 4096) :
    blockPair (iblk (F := Ideal) m c 0 ⟨b.val, hb⟩) (iblk (F := Ideal) m c 1 ⟨b.val, hb⟩) r cc = pair (X m c) (Y m c) b r cc := by
  unfold blockPair pair
  refine Finset.sum_congr rfl fun k _ => ?_
  rw [iblk0_apply m c ⟨b.val, hb⟩ b.isLt r k, iblk1_apply m c ⟨b.val, hb⟩ b.isLt k cc]
  exact congrArg₂ (· * ·) (V_v16_apply m c b r k) (V_v20_apply m c b k cc)

theorem N_pos (b : Fin 8) : b.val < cfg0.N := lt_of_lt_of_eq b.isLt N_0.symm

/-- The program's result after the later host operations is the total of the kernel's two sums. -/
theorem result_eq (c : Dev nD) :
    (Pipeline.afterTail₀ cfgs (dats (F := Ideal) m) 0 (V0 m) [hostOps1] c main_v30 : S_.Idx → EReal)
      = fun _ => total (kerRows (X m c) (Y m c)) (kerCols (X m c) (Y m c)) := by
  rw [tail_value]
  funext _
  refine congrArg₂ total ?_ ?_
  · unfold kerRows
    refine Finset.sum_congr rfl fun b _ => ?_
    rw [arr2_apply m c b (N_pos b) 0, out2_apply]
    refine Finset.sum_congr rfl fun r _ => ?_
    exact congrArg (max · 0) (iInf_congr fun cc => blockPair_eq m c b (N_pos b) r cc)
  · unfold kerCols
    refine Finset.sum_congr rfl fun b _ => ?_
    rw [arr3_apply m c b (N_pos b) 0, out3_apply]
    refine Finset.sum_congr rfl fun cc => ?_
    intro _
    exact congrArg (max · 0) (iInf_congr fun r => blockPair_eq m c b (N_pos b) r cc)

/-- Every weakly fair execution of the idealized kernel's @main terminates with its result at the total of the kernel's
    two sums and both argument arrays as launched. -/
theorem run_value : θ_run defs (onTc (τ := τ) (main (F := Ideal))) ⟨m, fun _ => 0, ρ⟩ (fun r => ∀ c : Dev nD,
      r.2.mem ((c.tc : Thread nD τ).loc main_v30) = (fun _ => total (kerRows (X m c) (Y m c)) (kerCols (X m c) (Y m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v30 (Pipeline.mem_restRefs_of main_v30 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KernelValue

end
-- ==== Proof.RefValue.lean ====
/-
  The reference, read as the specification: its one result is the two means added, each the sum over a
  cloud's points of the minimum, over the other cloud, of the clamped squared distance.
-/
import proofs.«144322_g85555748536873_cont_9to1_m_146_7_alg».proof.Proof.Gen.ReferenceIdeal.Read
import proofs.«144322_g85555748536873_cont_9to1_m_146_7_alg».proof.Proof.Spec
import Idealize.ShloMosaic.PureOps.Reduce

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.Chamfer

/-- The word for 2.0 is the extended real 2. -/
theorem two_word : Ideal.ofBits .f32 0x40000000#32 = 2 := by
  simp [Ideal.ofBits, Ideal.ieee, -EReal.coe_mul]; norm_num; norm_cast

/-- The word for +∞ is the top of the extended reals. -/
theorem top_word : Ideal.ofBits .f32 0x7F800000#32 = ⊤ := by simp [Ideal.ofBits, Ideal.ieee]

/-- The first cloud's sum of squares over the coordinate axis, from the zero word, is the squared norm. -/
theorem v1_at (x0 : (⟨S8x4096x3, .f32⟩ : BufTy).Contents (Elt Ideal)) (b : Fin 8) (n : Fin 4096) :
    val_main_v1 (F := Ideal) x0 (ix2 b n) = Chamfer.sq (cloud x0) b n := by
  rw [val_main_v1_apply, val_main_cst_apply]
  show Ideal.ofBits .f32 0x00000000#32 + _ = _
  rw [Ideal.ofBits_zero_f32, zero_add]
  unfold Chamfer.sq cloud
  refine Finset.sum_congr rfl fun k _ => ?_
  rw [val_main_v0_apply]
  have e : idx_main_v1 (ix2 b n) k = ix3 b n k := by
    funext a; match a with | ⟨0, _⟩ => rfl | ⟨1, _⟩ => rfl | ⟨2, _⟩ => rfl
  rw [e]; rfl

/-- The same for the second cloud. -/
theorem v3_at (x1 : (⟨S8x4096x3, .f32⟩ : BufTy).Contents (Elt Ideal)) (b : Fin 8) (m : Fin 4096) :
    val_main_v3 (F := Ideal) x1 (ix2 b m) = Chamfer.sq (cloud x1) b m := by
  rw [val_main_v3_apply, val_main_cst_0_apply]
  show Ideal.ofBits .f32 0x00000000#32 + _ = _
  rw [Ideal.ofBits_zero_f32, zero_add]
  unfold Chamfer.sq cloud
  refine Finset.sum_congr rfl fun k _ => ?_
  rw [val_main_v2_apply]
  have e : idx_main_v3 (ix2 b m) k = ix3 b m k := by
    funext a; match a with | ⟨0, _⟩ => rfl | ⟨1, _⟩ => rfl | ⟨2, _⟩ => rfl
  rw [e]; rfl

/-- The batched product of the two clouds at (b, n, m) is the inner product of point n and point m. -/
theorem v4_at (x0 x1 : (⟨S8x4096x3, .f32⟩ : BufTy).Contents (Elt Ideal)) (b : Fin 8) (n m : Fin 4096) :
    val_main_v4 (F := Ideal) x0 x1 (ix3 b n m) = dot (cloud x0) (cloud x1) b n m := by
  rw [val_main_v4_apply]
  unfold dot cloud
  refine Finset.sum_congr rfl fun k _ => ?_
  have el : lidx_main_v4 (ix3 b n m) k = ix3 b n k := by
    funext a; match a with | ⟨0, _⟩ => rfl | ⟨1, _⟩ => rfl | ⟨2, _⟩ => rfl
  have er : ridx_main_v4 (ix3 b n m) k = ix3 b m k := by
    funext a; match a with | ⟨0, _⟩ => rfl | ⟨1, _⟩ => rfl | ⟨2, _⟩ => rfl
  rw [el, er]

/-- The clamped array at (b, n, m) is the clamped squared distance: the two squared norms, each spread along the
    other point's axis, added, less twice the inner product, and the maximum of that and zero. -/
theorem v14_at (x0 x1 : (⟨S8x4096x3, .f32⟩ : BufTy).Contents (Elt Ideal)) (b : Fin 8) (n m : Fin 4096) :
    val_main_v14 (F := Ideal) x0 x1 (ix3 b n m) = dist (cloud x0) (cloud x1) b n m := by
  rw [val_main_v14_apply, val_main_v12_apply, val_main_v9_apply, val_main_v11_apply, val_main_v7_apply,
    val_main_v5_apply, val_main_v8_apply, val_main_v6_apply, val_main_v10_apply, val_main_v13_apply,
    val_main_cst_1_apply, val_main_cst_2_apply]
  have e1 : idx_main_v5 (idx_main_v7 (ix3 b n m)) = ix2 b n := by
    funext a; match a with | ⟨0, _⟩ => rfl | ⟨1, _⟩ => rfl
  have e2 : idx_main_v6 (idx_main_v8 (ix3 b n m)) = ix2 b m := by
    funext a; match a with | ⟨0, _⟩ => rfl | ⟨1, _⟩ => rfl
  rw [e1, e2, v1_at, v3_at, v4_at]
  show max ((_ + _) - Ideal.ofBits .f32 0x40000000#32 * _) (Ideal.ofBits .f32 0x00000000#32) = _
  rw [two_word, Ideal.ofBits_zero_f32]
  rfl

/-- A fold of `min` from the top over a whole finite range is the infimum over it. -/
theorem fold_min_top {n : Nat} (f : Fin n → EReal) :
    (Finset.univ : Finset (Fin n)).fold min ⊤ f = ⨅ m, f m := by
  rw [← Finset.inf_univ_eq_iInf]; rfl

/-- The minimum over the last axis, from +∞, at (b, n): the infimum over the second cloud's points. -/
theorem v15_at (x0 x1 : (⟨S8x4096x3, .f32⟩ : BufTy).Contents (Elt Ideal)) (b : Fin 8) (n : Fin 4096) :
    val_main_v15 (F := Ideal) x0 x1 (ix2 b n) = ⨅ m : Fin 4096, dist (cloud x0) (cloud x1) b n m := by
  have h : S8x4096x4096.Reduces [2] S8x4096 := by decide
  have hf : (val_main_v14 (F := Ideal) x0 x1 ∘ h.lift (ix2 b n))
      = fun m : Fin 4096 => dist (cloud x0) (cloud x1) b n m := by
    refine funext fun (m : Fin 4096) => ?_
    have e : h.lift (ix2 b n) m = (ix3 b n m : S8x4096x4096.Idx) := by
      funext a; match a with | ⟨0, _⟩ => rfl | ⟨1, _⟩ => rfl | ⟨2, _⟩ => rfl
    exact (congrArg (val_main_v14 (F := Ideal) x0 x1) e).trans (v14_at x0 x1 b n m)
  unfold val_main_v15
  rw [Host.reduce_eq_fold_single _ _ _ _ h, hf, val_main_cst_3_apply]
  show (Finset.univ : Finset (Fin 4096)).fold min (Ideal.ofBits .f32 0x7F800000#32)
    (fun m : Fin 4096 => dist (cloud x0) (cloud x1) b n m) = _
  rw [top_word, fold_min_top]

/-- The minimum over the middle axis, from +∞, at (b, m): the infimum over the first cloud's points. -/
theorem v16_at (x0 x1 : (⟨S8x4096x3, .f32⟩ : BufTy).Contents (Elt Ideal)) (b : Fin 8) (m : Fin 4096) :
    val_main_v16 (F := Ideal) x0 x1 (ix2 b m) = ⨅ n : Fin 4096, dist (cloud x0) (cloud x1) b n m := by
  have h : S8x4096x4096.Reduces [1] S8x4096 := by decide
  have hf : (val_main_v14 (F := Ideal) x0 x1 ∘ h.lift (ix2 b m))
      = fun n : Fin 4096 => dist (cloud x0) (cloud x1) b n m := by
    refine funext fun (n : Fin 4096) => ?_
    have e : h.lift (ix2 b m) n = (ix3 b n m : S8x4096x4096.Idx) := by
      funext a; match a with | ⟨0, _⟩ => rfl | ⟨1, _⟩ => rfl | ⟨2, _⟩ => rfl
    exact (congrArg (val_main_v14 (F := Ideal) x0 x1) e).trans (v14_at x0 x1 b n m)
  unfold val_main_v16
  rw [Host.reduce_eq_fold_single _ _ _ _ h, hf, val_main_cst_4_apply]
  show (Finset.univ : Finset (Fin 4096)).fold min (Ideal.ofBits .f32 0x7F800000#32)
    (fun n : Fin 4096 => dist (cloud x0) (cloud x1) b n m) = _
  rw [top_word, fold_min_top]

/-- The reference's result, as a function of its two argument arrays, is the specification's total of its two sums. -/
theorem ref_value (x0 x1 : (⟨S8x4096x3, .f32⟩ : BufTy).Contents (Elt Ideal)) :
    val_main_v21 (F := Ideal) x0 x1 = fun _ => total (refRows (cloud x0) (cloud x1)) (refCols (cloud x0) (cloud x1)) := by
  funext i
  -- the result is the two quotients added; each numerator is the zero word plus the sum over (batch, point)
  rw [val_main_v21_apply, val_main_v18_apply, val_main_v20_apply, val_main_v17_apply, val_main_v19_apply,
    val_main_cst_5_apply, val_main_cst_6_apply, val_main_cst_7_apply, val_main_cst_8_apply,
    sum_idx2, sum_idx2 (val_main_v16 (F := Ideal) x0 x1)]
  -- each summand is the infimum of the clamped squared distances
  simp only [v15_at, v16_at]
  rfl

end Cert.ReferenceIdeal.RefValue

end
-- ==== Proof.SpecLaws.lean ====
/-
  The laws that join the two programs' sums: on finite clouds the kernel's eight-term row product is
  the reference's three-term expression, and a clamp at zero commutes with a minimum.
-/
import proofs.«144322_g85555748536873_cont_9to1_m_146_7_alg».proof.Proof.Spec

noncomputable section

open scoped BigOperators

namespace Cert.Chamfer

open Idealize.ShloMosaic Idealize.ShloMosaic.ValueIdx

/-- The eight-term product at real coordinates: every entry is the image of a real number, the
images of sums, products, differences and negations are the sums, products, differences and
negations of the images, and the identity holds among the reals (each remainder is s - s = 0
there). -/
theorem pair_real (a0 a1 a2 c0 c1 c2 : ℝ) :
    ((a0 : EReal) * (-2 * (c0 : EReal)) + (a1 : EReal) * (-2 * (c1 : EReal))
        + (a2 : EReal) * (-2 * (c2 : EReal))
      + ((a0 : EReal) * a0 + (a1 : EReal) * a1 + (a2 : EReal) * a2) * 1
      + (((a0 : EReal) * a0 + (a1 : EReal) * a1 + (a2 : EReal) * a2)
          - ((a0 : EReal) * a0 + (a1 : EReal) * a1 + (a2 : EReal) * a2)) * 1
      + 1 * ((c0 : EReal) * c0 + (c1 : EReal) * c1 + (c2 : EReal) * c2)
      + 1 * (((c0 : EReal) * c0 + (c1 : EReal) * c1 + (c2 : EReal) * c2)
          - ((c0 : EReal) * c0 + (c1 : EReal) * c1 + (c2 : EReal) * c2))
      + 0 * 0)
    = (((a0 : EReal) * a0 + (a1 : EReal) * a1 + (a2 : EReal) * a2)
        + ((c0 : EReal) * c0 + (c1 : EReal) * c1 + (c2 : EReal) * c2))
      - 2 * ((a0 : EReal) * c0 + (a1 : EReal) * c1 + (a2 : EReal) * c2) := by
  have h2 : (2 : EReal) = ((2 : ℝ) : EReal) := by norm_cast
  rw [h2, ← EReal.coe_one, ← EReal.coe_zero]
  simp only [← EReal.coe_mul, ← EReal.coe_add, ← EReal.coe_sub, ← EReal.coe_neg]
  congr 1
  ring

/-- On finite clouds the eight-term product is the three-term expression. -/
theorem pair_eq (x y : Cloud) (hx : Finite x) (hy : Finite y) (b : Fin 8) (n m : Fin 4096) :
    pair x y b n m = (sq x b n + sq y b m) - 2 * dot x y b n m := by
  -- a coordinate that is neither infinity is the image of a real number
  have hX : ∀ d, ∃ r : ℝ, x b n d = (r : EReal) := fun d =>
    ⟨(x b n d).toReal, (EReal.coe_toReal (hx b n d).1 (hx b n d).2).symm⟩
  have hY : ∀ d, ∃ r : ℝ, y b m d = (r : EReal) := fun d =>
    ⟨(y b m d).toReal, (EReal.coe_toReal (hy b m d).1 (hy b m d).2).symm⟩
  obtain ⟨a0, h0⟩ := hX 0
  obtain ⟨a1, h1⟩ := hX 1
  obtain ⟨a2, h2⟩ := hX 2
  obtain ⟨c0, k0⟩ := hY 0
  obtain ⟨c1, k1⟩ := hY 1
  obtain ⟨c2, k2⟩ := hY 2
  unfold pair
  rw [Fin.sum_univ_eight]
  simp only [augL, augR, sq, dot, Fin.sum_univ_three, Matrix.cons_val_zero, Matrix.cons_val_one,
    Matrix.cons_val]
  rw [h0, h1, h2, k0, k1, k2]
  exact pair_real a0 a1 a2 c0 c1 c2

/-- Clamping at zero commutes with the minimum over a cloud. -/
theorem max_iInf_zero (f : Fin 4096 → EReal) : max (⨅ m, f m) 0 = ⨅ m, max (f m) 0 := by
  -- a complete linear order is a coframe: a join distributes over any infimum
  exact iInf_sup_eq f 0

theorem kerRows_eq (x y : Cloud) (hx : Finite x) (hy : Finite y) : kerRows x y = refRows x y := by
  unfold kerRows refRows
  refine Finset.sum_congr rfl (fun b _ => Finset.sum_congr rfl (fun n _ => ?_))
  rw [max_iInf_zero]
  refine iInf_congr (fun m => ?_)
  rw [pair_eq x y hx hy]
  rfl

theorem kerCols_eq (x y : Cloud) (hx : Finite x) (hy : Finite y) : kerCols x y = refCols x y := by
  unfold kerCols refCols
  refine Finset.sum_congr rfl (fun b _ => Finset.sum_congr rfl (fun m _ => ?_))
  rw [max_iInf_zero]
  refine iInf_congr (fun n => ?_)
  rw [pair_eq x y hx hy]
  rfl

end Cert.Chamfer

end
-- ==== Proof.FiniteInputs.lean ====
/-
  The precondition read back: every coordinate of both clouds is a real number.
-/
import proofs.«144322_g85555748536873_cont_9to1_m_146_7_alg».proof.Pre_finite_inputs
import proofs.«144322_g85555748536873_cont_9to1_m_146_7_alg».proof.Proof.Spec
import proofs.«144322_g85555748536873_cont_9to1_m_146_7_alg».proof.Proof.Gen.Pre_finite_inputs
import Idealize.ShloMosaic.Lib.ReduceAll
import Idealize.ShloMosaic.Lib.ValueIdx
import Idealize.ShloMosaic.PureOps.Ideal.Laws

noncomputable section

open scoped BigOperators

namespace Cert.FiniteInputs

open Idealize.ShloMosaic Idealize.ShloMosaic.TcCoe Idealize.ShloMosaic.ValueIdx Idealize.SL.Sem Cert.Chamfer

/-- The word 0x7F800000 is the positive infinity. -/
theorem inf_word : Ideal.ofBits .f32 0x7F800000#32 = (⊤ : EReal) := by
  simp [Ideal.ofBits, Ideal.ieee]

/-- An extended real whose absolute value lies strictly below the positive infinity is a real number. -/
theorem real_of_abs_lt (x : EReal) (h : Ideal.cmp .olt (max x (-x)) ⊤ = 1#1) : x ≠ ⊤ ∧ x ≠ ⊥ := by
  induction x using EReal.rec with
  | bot => simp [Ideal.cmp] at h
  | top => simp [Ideal.cmp] at h
  | coe r => exact ⟨EReal.coe_ne_top r, EReal.coe_ne_bot r⟩

/-- The result shape of a reduction over every axis has a single index. -/
instance : Subsingleton Cert.Pre_finite_inputs.S_.Idx := ⟨fun a b => funext fun d => d.elim0⟩

/-- One entry of an array whose comparison word against the infinity is 1 is a real number. -/
theorem entry_real [Cert.Pre_finite_inputs.Facts] (a : (⟨3, ![8, 4096, 3]⟩ : Shape).Idx → EReal) (i : (⟨3, ![8, 4096, 3]⟩ : Shape).Idx)
    (e : cmpf (F := Ideal) .olt (Host.absf (F := Ideal) (φ := .f32) a)
      (broadcastInDim Cert.Pre_finite_inputs.S8x4096x3 ![] Cert.Pre_finite_inputs.Facts.bcast_S_S8x4096x3
        (constant (F := Ideal) Cert.Pre_finite_inputs.S_ .f32 0x7F800000#32)) i = 1#1) :
    a i ≠ ⊤ ∧ a i ≠ ⊥ := by
  apply real_of_abs_lt
  rw [← inf_word]
  exact e

/-- If the printed predicate is all ones on two arrays, both are finite clouds. -/
theorem finite_of_fn [Cert.Pre_finite_inputs.Facts] (a0 a1 : (⟨3, ![8, 4096, 3]⟩ : Shape).Idx → EReal)
    (h : Cert.Pre_finite_inputs.fn (F := Ideal) a0 a1 = (fun _ => 1#1)) :
    Finite (cloud a0) ∧ Finite (cloud a1) := by
  have h0 := congrFun h ValueIdx.ix0
  unfold Cert.Pre_finite_inputs.fn at h0
  dsimp only at h0
  obtain ⟨h1, h2⟩ := IntOp.andi_eq_one.1 h0
  exact ⟨fun b n d => entry_real a0 _ (Host.reduce_andi_all _ _ _ _ _ h1 (ix3 b n d)),
    fun b n d => entry_real a1 _ (Host.reduce_andi_all _ _ _ _ _ h2 (ix3 b n d))⟩

end Cert.FiniteInputs

end
-- ==== Proof.lean ====
/-
  The certificate. A Chamfer distance between two batches of point clouds: the kernel forms every pairwise
  value |p|² + |q|² - 2 p·q as one product of augmented eight-entry rows on the matrix unit, keeps running
  minima per row and per column, clamps them at zero, sums them per batch, and the host adds the two means;
  the reference forms the clamped pairwise matrix, takes its minima along both axes and adds the two means.
  The three frames: both kernel programs run to the end through the region's frame (their argument arrays
  are read by host operations only and written by nothing), the reference through its run. Nothing was
  rewritten by the idealization. At the extended reals, under finite inputs, both programs' results are the
  total of two sums which agree sum by sum: the eight-term product is the three-term expression, and a
  clamp at zero commutes with a minimum.
-/
import proofs.«144322_g85555748536873_cont_9to1_m_146_7_alg».proof.Defs
import proofs.«144322_g85555748536873_cont_9to1_m_146_7_alg».proof.Proof.Gen.Kernel
import proofs.«144322_g85555748536873_cont_9to1_m_146_7_alg».proof.Proof.Gen.KernelIdeal
import proofs.«144322_g85555748536873_cont_9to1_m_146_7_alg».proof.Proof.Gen.ReferenceIdeal
import proofs.«144322_g85555748536873_cont_9to1_m_146_7_alg».proof.Proof.Gen.Pre_finite_inputs
import proofs.«144322_g85555748536873_cont_9to1_m_146_7_alg».proof.Proof.Gen.ReferenceIdeal.Run
import proofs.«144322_g85555748536873_cont_9to1_m_146_7_alg».proof.Proof.Gen.ReferenceIdeal.Read
import proofs.«144322_g85555748536873_cont_9to1_m_146_7_alg».proof.Proof.K.Frame
import proofs.«144322_g85555748536873_cont_9to1_m_146_7_alg».proof.Proof.KI.Frame
import proofs.«144322_g85555748536873_cont_9to1_m_146_7_alg».proof.Proof.KI.KernelValue
import proofs.«144322_g85555748536873_cont_9to1_m_146_7_alg».proof.Proof.RefValue
import proofs.«144322_g85555748536873_cont_9to1_m_146_7_alg».proof.Proof.SpecLaws
import proofs.«144322_g85555748536873_cont_9to1_m_146_7_alg».proof.Proof.FiniteInputs
import Idealize.ShloMosaic.Adequacy
import Idealize.ShloMosaic.Init

noncomputable section

namespace Cert.Proof

open Idealize.ShloMosaic Idealize.ShloMosaic.TcCoe Idealize.SL.Sem Cert.Chamfer

attribute [local instance] Cert.Kernel.Gen.facts Cert.KernelIdeal.Gen.facts Cert.ReferenceIdeal.Gen.facts Cert.Pre_finite_inputs.Gen.facts

/-- The word-level kernel program runs, faults nowhere and leaves both argument arrays as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the total of two sums; on finite clouds the kernel's sums are the reference's. -/
theorem algebraic : Cert.algebraic_KernelIdeal_ReferenceIdeal := by
  intro m ρ m' ρ' hpre hagree
  refine ⟨fun c => (fun _ => total (kerRows (Cert.KernelIdeal.KernelValue.X m c) (Cert.KernelIdeal.KernelValue.Y m c))
      (kerCols (Cert.KernelIdeal.KernelValue.X m c) (Cert.KernelIdeal.KernelValue.Y m c))),
    Cert.KernelIdeal.KernelValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨hx, hy⟩ := Cert.FiniteInputs.finite_of_fn _ _ (hpre c)
  rw [Cert.ReferenceIdeal.Read.val_main_v21_eq, Cert.ReferenceIdeal.RefValue.ref_value, (hagree c).1, (hagree c).2]
  funext _
  exact congrArg₂ total (kerRows_eq _ _ hx hy).symm (kerCols_eq _ _ hx hy).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
